-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40_1)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_1) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S2x128 .f32) (main_arg11 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128x256 .f32) (main_arg6 : FVec F S128 .f32) (main_arg7 : FVec F S128x128 .f32) (main_arg8 : FVec F S128 .f32) (main_arg9 : FVec F S128x128 .f32) (main_arg10 : FVec F S2x128 .f32) (main_arg11 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S256x128 .f32) (main_arg3 : FVec F S256 .f32) (main_arg4 : FVec F S256x128 .f32) (main_arg5 : FVec F S128x256 .f32) (main_arg6 : FVec F S128 .f32) (main_arg7 : FVec F S128x128 .f32) (main_arg8 : FVec F S128 .f32) (main_arg9 : FVec F S128x128 .f32) (main_arg10 : FVec F S2x128 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S1x2 : Shape := ⟨2, ![1, 2]⟩
abbrev S100000x2 : Shape := ⟨2, ![100000, 2]⟩
abbrev S2000x2 : Shape := ⟨2, ![2000, 2]⟩
abbrev S128x2 : Shape := ⟨2, ![128, 2]⟩

abbrev nBuf : Space → Nat
  | .hbm => 63
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S2x128, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x256, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S1x2, .f32⟩
  | .hbm, ⟨61, _⟩ => ⟨S100000x128, .f32⟩
  | .hbm, ⟨62, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S128x256, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S2x128, .f32⟩
  | .local _ .vmem, ⟨19, _⟩ => ⟨S1x2, .f32⟩
  | .local _ .vmem, ⟨20, _⟩ => ⟨S2000x128, .f32⟩
  | .local _ .vmem, ⟨21, _⟩ => ⟨S2000x128, .f32⟩
  | .local _ .vmem, ⟨22, _⟩ => ⟨S2000x2, .f32⟩
  | .local _ .vmem, ⟨23, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40_0 : Ref sig .tc := ⟨.hbm, 61, rfl⟩
abbrev main_v40_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2_S1x2 : S2.ShapeCasts S1x2
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S2000x128_S2000 : S2000x128.Reduces [1] S2000
  broadcasts_S2000x1_S2000x128 : S2000x1.Broadcasts S2000x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x2.size a ≤ S100000x2.size a
  hwx1_8 : ∀ i : grid1.Coords, EltTy.bits .f32 = 32 ∨ (Rect.block (s := S100000x2) S2000x2.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S2x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v40_1) S2000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S256x128, .f32⟩
  | 3 => ⟨S256, .f32⟩
  | 4 => ⟨S256x128, .f32⟩
  | 5 => ⟨S128x256, .f32⟩
  | 6 => ⟨S128, .f32⟩
  | 7 => ⟨S128x128, .f32⟩
  | 8 => ⟨S128, .f32⟩
  | 9 => ⟨S128x128, .f32⟩
  | 10 => ⟨S2x128, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S128x256, .f32⟩
  | 42 => ⟨S100000x256, .f32⟩
  | 43 => ⟨S1x256, .f32⟩
  | 44 => ⟨S100000x256, .f32⟩
  | 45 => ⟨S100000x256, .f32⟩
  | 46 => ⟨S128x256, .f32⟩
  | 47 => ⟨S100000x256, .f32⟩
  | 48 => ⟨S100000x256, .f32⟩
  | 49 => ⟨S100000x256, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x256, .f32⟩
  | 58 => ⟨S100000x256, .f32⟩
  | 59 => ⟨S256x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S128x2, .f32⟩
  | 111 => ⟨S100000x2, .f32⟩
  | 112 => ⟨S1x2, .f32⟩
  | 113 => ⟨S100000x2, .f32⟩
  | 114 => ⟨S100000x2, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x2, .f32⟩
  | 122 => ⟨S100000x2, .f32⟩
  | 123 => ⟨S100000x2, .f32⟩
  | 124 => ⟨S_, .f32⟩
  | 125 => ⟨S100000, .f32⟩
  | 126 => ⟨S100000x1, .f32⟩
  | 127 => ⟨S100000x2, .f32⟩
  | _ => ⟨S100000x128, .f32⟩

abbrev hbmTy0_1 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call1_v0 : Ref sig .tc := ⟨.hbm, 100, rfl⟩
abbrev main_call1_cst : Ref sig .tc := ⟨.hbm, 101, rfl⟩
abbrev main_call1_v1 : Ref sig .tc := ⟨.hbm, 102, rfl⟩
abbrev main_call1_v2 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_cst_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  The mathematics both programs compute, one node (one row) at a time, on the extended reals.

  A GraphSAGE layer with L2 normalisation takes a node's aggregated neighbour mean `a` and the node's own
  features `x` (two rows of length `i`) to the row `v / max (√(∑ⱼ vⱼ²)) ε`, where entry `j` of the pre-activation
  `v` is `∑ₖ a k * Wl j k + ∑ₖ x k * Wr j k + b j`. The first layer is followed by a linear map and a ReLU, the
  second by a linear map to the class logits and a softmax over them. Every output row depends only on the SAME row
  of the two inputs (and on the weights), so everything below is stated for one row: a tile of 2000 rows and the whole
  array of 100000 rows are both "this function at each row".
-/
import Idealize.ShloMosaic.PureOps.Ideal
import Idealize.ShloMosaic.Lib.ValueIdx

noncomputable section

namespace Cert.Sage

open Idealize.ShloMosaic

/-- A row times the transpose of a weight matrix: entry `j` is `∑ₖ a k * W j k`. -/
def lin {i o : ℕ} (a : Fin i → EReal) (W : Fin o → Fin i → EReal) (j : Fin o) : EReal :=
  ∑ k : Fin i, a k * W j k

/-- The layer's pre-activation, the bias added last: `a·Wlᵀ + x·Wrᵀ + b` at entry `j`. -/
def pre {i o : ℕ} (a x : Fin i → EReal) (Wl : Fin o → Fin i → EReal) (b : Fin o → EReal)
    (Wr : Fin o → Fin i → EReal) (j : Fin o) : EReal :=
  lin a Wl j + lin x Wr j + b j

/-- Adding the bias BEFORE the root term gives the same entry: addition of extended reals is commutative and
    associative (no cancellation is used, so the infinities need no care). -/
theorem pre_bias_first {i o : ℕ} (a x : Fin i → EReal) (Wl : Fin o → Fin i → EReal) (b : Fin o → EReal)
    (Wr : Fin o → Fin i → EReal) (j : Fin o) :
    lin a Wl j + b j + lin x Wr j = pre a x Wl b Wr j :=
  add_right_comm _ _ _

/-- The clamp under the norm: the single-precision number nearest `10⁻¹²`, the same word in both programs. -/
def eps : EReal := Ideal.ofBits .f32 0x2B8CBCCC#32

/-- L2 normalisation of a row: each entry over `max (√(∑ₖ vₖ²)) ε`. -/
def normalize {o : ℕ} (v : Fin o → EReal) (j : Fin o) : EReal :=
  Ideal.div (v j) (max (Ideal.sqrt (∑ k : Fin o, v k * v k)) eps)

/-- One row of a normalised SAGE layer. -/
def sage {i o : ℕ} (a x : Fin i → EReal) (Wl : Fin o → Fin i → EReal) (b : Fin o → EReal)
    (Wr : Fin o → Fin i → EReal) : Fin o → EReal :=
  normalize (pre a x Wl b Wr)

/-- The single-precision zero the ReLU clamps at. -/
def zero32 : EReal := Ideal.ofBits .f32 0x00000000#32

/-- One row of the first stage: the normalised layer, a linear map with bias, and a ReLU. -/
def hidden {i o p : ℕ} (a x : Fin i → EReal) (Wl : Fin o → Fin i → EReal) (b : Fin o → EReal)
    (Wr : Fin o → Fin i → EReal) (Wlin : Fin p → Fin o → EReal) (blin : Fin p → EReal) (j : Fin p) : EReal :=
  max (lin (sage a x Wl b Wr) Wlin j + blin j) zero32

/-- The class logits of a row: a linear map with bias. -/
def logit {o n : ℕ} (y : Fin o → EReal) (W : Fin n → Fin o → EReal) (b : Fin n → EReal) (c : Fin n) : EReal :=
  lin y W c + b c

/-- The single-precision `-∞` a running maximum starts from. -/
def ninf : EReal := Ideal.ofBits .f32 0xFF800000#32

/-- The maximum a softmax subtracts: `-∞` against the fold of `max` over the row from `-∞`. -/
def rowMax {n : ℕ} (l : Fin n → EReal) : EReal :=
  max ninf ((Finset.univ : Finset (Fin n)).fold max ninf l)

/-- The softmax of a row: `exp (l c - M) / ∑ exp (l c' - M)` with `M` the row's maximum. -/
def softmax {n : ℕ} (l : Fin n → EReal) (c : Fin n) : EReal :=
  Ideal.div (Ideal.exp (l c - rowMax l)) (∑ c' : Fin n, Ideal.exp (l c' - rowMax l))

/-- One row of the class probabilities: the softmax of the logits of the second layer's row. -/
def probs {i o n : ℕ} (a x : Fin i → EReal) (Wl : Fin o → Fin i → EReal) (b : Fin o → EReal)
    (Wr : Fin o → Fin i → EReal) (W : Fin n → Fin o → EReal) (bc : Fin n → EReal) : Fin n → EReal :=
  softmax (logit (sage a x Wl b Wr) W bc)

/-! ## Arrays: the row functions at every row

An array of shape `[n, d]` is a function of its two coordinates; its row `r` is `fun k => A (r, k)`. A weight matrix
`[o, i]` is read as `W j k`, a bias `[o]` as `b j`, and a bias stored as a one-row matrix `[1, o]` through its row `0`. -/

/-- Row `r` of a two-axis array. -/
def rowOf {n d : ℕ} (A : (⟨2, ![n, d]⟩ : Shape).Idx → EReal) (r : Fin n) : Fin d → EReal := fun k => A (ValueIdx.ix2 r k)

/-- A two-axis array read as a matrix `W j k`. -/
def matOf {o i : ℕ} (W : (⟨2, ![o, i]⟩ : Shape).Idx → EReal) : Fin o → Fin i → EReal := fun j k => W (ValueIdx.ix2 j k)

/-- A one-axis array read as a vector. -/
def vecOf {n : ℕ} (b : (⟨1, ![n]⟩ : Shape).Idx → EReal) : Fin n → EReal := fun j => b (ValueIdx.ix1 j)

/-- The first stage on a whole array of nodes: `hidden` at each row. -/
def hiddenArr {n i o p : ℕ} (A X : (⟨2, ![n, i]⟩ : Shape).Idx → EReal) (Wl : (⟨2, ![o, i]⟩ : Shape).Idx → EReal)
    (b : Fin o → EReal) (Wr : (⟨2, ![o, i]⟩ : Shape).Idx → EReal) (Wlin : (⟨2, ![p, o]⟩ : Shape).Idx → EReal)
    (blin : Fin p → EReal) : (⟨2, ![n, p]⟩ : Shape).Idx → EReal :=
  fun y => hidden (rowOf A (y 0)) (rowOf X (y 0)) (matOf Wl) b (matOf Wr) (matOf Wlin) blin (y 1)

/-- The second layer on a whole array of nodes: `sage` at each row. -/
def sageArr {n i o : ℕ} (A X : (⟨2, ![n, i]⟩ : Shape).Idx → EReal) (Wl : (⟨2, ![o, i]⟩ : Shape).Idx → EReal)
    (b : Fin o → EReal) (Wr : (⟨2, ![o, i]⟩ : Shape).Idx → EReal) : (⟨2, ![n, o]⟩ : Shape).Idx → EReal :=
  fun y => sage (rowOf A (y 0)) (rowOf X (y 0)) (matOf Wl) b (matOf Wr) (y 1)

/-- The class probabilities on a whole array of nodes: `probs` at each row. -/
def probsArr {n i o c : ℕ} (A X : (⟨2, ![n, i]⟩ : Shape).Idx → EReal) (Wl : (⟨2, ![o, i]⟩ : Shape).Idx → EReal)
    (b : Fin o → EReal) (Wr : (⟨2, ![o, i]⟩ : Shape).Idx → EReal) (W : (⟨2, ![c, o]⟩ : Shape).Idx → EReal)
    (bc : Fin c → EReal) : (⟨2, ![n, c]⟩ : Shape).Idx → EReal :=
  fun y => probs (rowOf A (y 0)) (rowOf X (y 0)) (matOf Wl) b (matOf Wr) (matOf W) bc (y 1)

/-- The arrays at an index given by its coordinates. -/
theorem hiddenArr_apply {n i o p : ℕ} (A X : (⟨2, ![n, i]⟩ : Shape).Idx → EReal) (Wl : (⟨2, ![o, i]⟩ : Shape).Idx → EReal)
    (b : Fin o → EReal) (Wr : (⟨2, ![o, i]⟩ : Shape).Idx → EReal) (Wlin : (⟨2, ![p, o]⟩ : Shape).Idx → EReal)
    (blin : Fin p → EReal) (r : Fin n) (j : Fin p) :
    hiddenArr A X Wl b Wr Wlin blin (ValueIdx.ix2 r j)
      = hidden (rowOf A r) (rowOf X r) (matOf Wl) b (matOf Wr) (matOf Wlin) blin j := rfl

theorem sageArr_apply {n i o : ℕ} (A X : (⟨2, ![n, i]⟩ : Shape).Idx → EReal) (Wl : (⟨2, ![o, i]⟩ : Shape).Idx → EReal)
    (b : Fin o → EReal) (Wr : (⟨2, ![o, i]⟩ : Shape).Idx → EReal) (r : Fin n) (j : Fin o) :
    sageArr A X Wl b Wr (ValueIdx.ix2 r j) = sage (rowOf A r) (rowOf X r) (matOf Wl) b (matOf Wr) j := rfl

theorem probsArr_apply {n i o c : ℕ} (A X : (⟨2, ![n, i]⟩ : Shape).Idx → EReal) (Wl : (⟨2, ![o, i]⟩ : Shape).Idx → EReal)
    (b : Fin o → EReal) (Wr : (⟨2, ![o, i]⟩ : Shape).Idx → EReal) (W : (⟨2, ![c, o]⟩ : Shape).Idx → EReal)
    (bc : Fin c → EReal) (r : Fin n) (k : Fin c) :
    probsArr A X Wl b Wr W bc (ValueIdx.ix2 r k)
      = probs (rowOf A r) (rowOf X r) (matOf Wl) b (matOf Wr) (matOf W) bc k := rfl

end Cert.Sage

end
-- ==== Proof.KHost.lean ====
/-
  What the two kernel regions find in the buffers the host operations leave untouched or only re-lay.

  Region 0 is entered after the first stretch of host operations, region 1 after the second. Neither stretch and
  neither region writes an argument of the program, so each region reads the launch contents there; a bias of shape
  `[o]` reaches its region re-laid as a one-row matrix `[1, o]`, whose row `0` is the bias; and the first region's
  output is not touched by the second stretch.
-/
import proofs.«113117_j14345190769012_1_alg».proof.Proof.Gen.KernelIdeal.Frame
import proofs.«113117_j14345190769012_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- A vector of length `a` re-laid as a one-row matrix `[1, a]` reads, at `(0, j)`, the vector at `j`. -/
theorem shapeCast_a_1a_apply {α : Type} {a : ℕ} (x : (⟨1, ![a]⟩ : Shape).Idx → α)
    (h : (⟨1, ![a]⟩ : Shape).ShapeCasts ⟨2, ![1, a]⟩) (j : Fin a) :
    shapeCast ⟨2, ![1, a]⟩ x h (ix2 (0 : Fin 1) j) = x (ix1 j) :=
  shapeCast_apply x h _ _ (by
    rw [Shape.rowMajor_val_two, Shape.rowMajor_val_one]
    show j.val = 0 * a + j.val
    omega)

/-! ## At the entry of region 0 -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-- The first layer's bias as region 0 finds it: the argument `[256]` re-laid as `[1, 256]`. -/
theorem W1_bias1 (c : Dev nD) :
    W1 m ρ c (Proc.devRef .tc main_v23) = shapeCast S1x256 (m ((c : Thread nD τ).loc main_arg3)) shapeCasts_S256_S1x256 := by
  show StableHlo.after hostOps0 (W0 m ρ c) (Proc.devRef .tc main_v23) = _
  after_results_simp <;> rfl
/-- The linear map's bias as region 0 finds it: the argument `[128]` re-laid as `[1, 128]`. -/
theorem W1_biasLin (c : Dev nD) :
    W1 m ρ c (Proc.devRef .tc main_v24) = shapeCast S1x128 (m ((c : Thread nD τ).loc main_arg6)) shapeCasts_S128_S1x128 := by
  show StableHlo.after hostOps0 (W0 m ρ c) (Proc.devRef .tc main_v24) = _
  after_results_simp <;> rfl

/-! ## At the entry of region 1

The second stretch starts from what region 0 leaves: its own arrays at what its write-backs left, every other buffer as
the first stretch left it. -/

/-- A buffer that is no window of region 0 and that the first stretch does not write holds its launch contents when
    the second stretch starts. -/
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl
theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp <;> rfl

theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c

/-- The second layer's bias as region 1 finds it: the argument `[128]` re-laid as `[1, 128]`. -/
theorem W3_bias2 (c : Dev nD) :
    W3 m ρ c (Proc.devRef .tc main_v38) = shapeCast S1x128 (m ((c : Thread nD τ).loc main_arg8)) shapeCasts_S128_S1x128 := by
  show StableHlo.after hostOps1 (W2 m ρ c) (Proc.devRef .tc main_v38) = _
  after_results_simp
  rw [W2_arg8 m ρ c]
  rfl
/-- The classifier's bias as region 1 finds it: the argument `[2]` re-laid as `[1, 2]`. -/
theorem W3_biasC (c : Dev nD) :
    W3 m ρ c (Proc.devRef .tc main_v39) = shapeCast S1x2 (m ((c : Thread nD τ).loc main_arg11)) shapeCasts_S2_S1x2 := by
  show StableHlo.after hostOps1 (W2 m ρ c) (Proc.devRef .tc main_v39) = _
  after_results_simp
  rw [W2_arg11 m ρ c]
  rfl

/-- The first region's output array is what region 1 reads as the nodes' own features: the second stretch does not
    write it, and region 0 left it at what its write-backs folded. -/
theorem W3_hidden (c : Dev nD) :
    W3 m ρ c (Proc.devRef .tc main_v25) = (dat0 (F := Ideal) (V1 m ρ) c).arrAt 7 cfg0.N := by
  show StableHlo.after hostOps1 (W2 m ρ c) (Proc.devRef .tc main_v25) = _
  after_results_simp
  exact W2_arr m ρ c 7

end Cert.KernelIdeal.HostValue

end
-- ==== Proof.KMean.lean ====
/-
  The aggregated neighbour means the two kernel regions are fed.

  Both stretches of host operations aggregate by the same chain: the edge list's sources (negative ones wrapped by the
  node count) gather rows of a feature array, a scatter-add sums them at the edges' targets, and the sums are divided by
  the targets' in-degrees clamped at one. The chain is never opened here: it is named once, as the function of a feature
  array and the edge list that the reference's own first aggregation is, and each region's mean is that function of the
  features the region aggregates — the program's input for region 0, region 0's output for region 1.
-/
import proofs.«113117_j14345190769012_1_alg».proof.Proof.KHost
import proofs.«113117_j14345190769012_1_alg».proof.Proof.Gen.ReferenceIdeal.Read

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The mean aggregation of a feature array along an edge list, as one function: the reference's first aggregation. -/
abbrev aggregate (h : (⟨S100000x128, .f32⟩ : BufTy).Contents (Elt Ideal)) (ei : (⟨S2x1600000, .i32⟩ : BufTy).Contents (Elt Ideal)) :
    (⟨S100000x128, .f32⟩ : BufTy).Contents (Elt Ideal) :=
  Cert.ReferenceIdeal.Read.val_main_v22 (F := Ideal) h ei

/-- Region 0 is fed the aggregation of the program's input features. -/
theorem W1_mean (c : Dev nD) :
    W1 m ρ c (Proc.devRef .tc main_v22)
      = aggregate (m ((c : Thread nD τ).loc main_arg0)) (m ((c : Thread nD τ).loc main_arg1)) := by
  show StableHlo.after hostOps0 (W0 m ρ c) (Proc.devRef .tc main_v22) = _
  after_results_simp
  rfl

/-- Region 1 is fed the aggregation of region 0's output: the second stretch runs the same chain on it, with the edge
    list's sources, targets and clamped in-degrees the first stretch computed and no later item overwrote. -/
theorem W3_mean (c : Dev nD) :
    W3 m ρ c (Proc.devRef .tc main_v37)
      = aggregate (W2 m ρ c (Proc.devRef .tc main_v25)) (m ((c : Thread nD τ).loc main_arg1)) := by
  show StableHlo.after hostOps1 (W2 m ρ c) (Proc.devRef .tc main_v37) = _
  after_results_simp
  rw [W2_of_ne m ρ c main_v1 (by decide), W2_of_ne m ρ c main_v3 (by decide), W2_of_ne m ρ c main_v10 (by decide)]
  show _ = aggregate (W2 m ρ c (Proc.devRef .tc main_v25)) (m ((c : Thread nD τ).loc main_arg1))
  generalize W2 m ρ c (Proc.devRef .tc main_v25) = H
  dsimp only [W1]
  after_results_simp
  rfl

end Cert.KernelIdeal.HostValue

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.K0Pay.lean ====
import proofs.«113117_j14345190769012_1_alg».proof.Proof.Gen.KernelIdeal.Skeleton
import proofs.«113117_j14345190769012_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«113117_j14345190769012_1_alg».proof.Proof.LibColumns

set_option maxRecDepth 16384

noncomputable section

namespace Cert.KernelIdeal.Region0

open Cert.KernelIdeal Cert.KernelIdeal.Gen
open Idealize.ShloMosaic Idealize.ShloMosaic.TcCoe

/-! ### The contraction `[2000, 128] · [128, 256]`: operand indices of the product at an output entry -/

theorem lhsA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhsA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhsA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhsA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product into the zero accumulator, read at `(r, j)`: `∑ₖ A (r, k) * B (k, j)`. -/
theorem matmulA_apply (A : FVec Ideal S2000x128 .bf16) (B : FVec Ideal S128x256 .bf16) (r : Fin 2000) (j : Fin 256) :
    matmul dot_S2000x128_S128x256_S2000x256_1_0_0_1_n_n none A B (constant (F := Ideal) S2000x256 .f32 0x00000000#32) (ValueIdx.ix2 r j)
      = ∑ k : Fin 128, A (ValueIdx.ix2 r k) * B (ValueIdx.ix2 k j) := by
  refine (Ideal.matmul_constant_zero_apply dot_S2000x128_S128x256_S2000x256_1_0_0_1_n_n none A B (ValueIdx.ix2 r j)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ValueIdx.ix2 r j) ((ValueIdx.contrEquiv1 dot_S2000x128_S128x256_S2000x256_1_0_0_1_n_n 128 rfl rfl).symm k) = ValueIdx.ix2 r k := funext fun a => Fin.ext (by
    match a with
    | ⟨0, _⟩ => exact lhsA_0 _ _
    | ⟨1, _⟩ => exact (lhsA_1 _ _).trans hk)
  have er : dot_S2000x128_S128x256_S2000x256_1_0_0_1_n_n.rhsIdx (ValueIdx.ix2 r j) ((ValueIdx.contrEquiv1 dot_S2000x128_S128x256_S2000x256_1_0_0_1_n_n 128 rfl rfl).symm k) = ValueIdx.ix2 k j := funext fun a => Fin.ext (by
    match a with
    | ⟨0, _⟩ => exact (rhsA_0 _ _).trans hk
    | ⟨1, _⟩ => exact rhsA_1 _ _)
  rw [el, er]

/-! ### The contraction `[2000, 256] · [256, 128]`: operand indices of the product at an output entry -/

theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product into the zero accumulator, read at `(r, j)`: `∑ₖ A (r, k) * B (k, j)`. -/
theorem matmulB_apply (A : FVec Ideal S2000x256 .bf16) (B : FVec Ideal S256x128 .bf16) (r : Fin 2000) (j : Fin 128) :
    matmul dot_S2000x256_S256x128_S2000x128_1_0_0_1_n_n none A B (constant (F := Ideal) S2000x128 .f32 0x00000000#32) (ValueIdx.ix2 r j)
      = ∑ k : Fin 256, A (ValueIdx.ix2 r k) * B (ValueIdx.ix2 k j) := by
  refine (Ideal.matmul_constant_zero_apply dot_S2000x256_S256x128_S2000x128_1_0_0_1_n_n none A B (ValueIdx.ix2 r j)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ValueIdx.ix2 r j) ((ValueIdx.contrEquiv1 dot_S2000x256_S256x128_S2000x128_1_0_0_1_n_n 256 rfl rfl).symm k) = ValueIdx.ix2 r k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ValueIdx.ix2 r j) ((ValueIdx.contrEquiv1 dot_S2000x256_S256x128_S2000x128_1_0_0_1_n_n 256 rfl rfl).symm k) = ValueIdx.ix2 k j := funext fun a => Fin.ext (by
    match a with
    | ⟨0, _⟩ => exact (rhsB_0 _ _).trans hk
    | ⟨1, _⟩ => exact rhsB_1 _ _)
  rw [el, er]

/-! ### The stages of the row function, each over variable tiles -/

/-- A tile times the transpose of a `[256, 128]` weight matrix, read at `(r, j)`: `Sage.lin` of row `r`. -/
theorem linA_apply (A : FVec Ideal S2000x128 .f32) (W : FVec Ideal S256x128 .f32) (hb : FTy.bits .bf16 < FTy.bits .f32)
    (ht : S256x128.Transposes [1, 0] S128x256) (r : Fin 2000) (j : Fin 256) :
    matmul dot_S2000x128_S128x256_S2000x256_1_0_0_1_n_n none (truncf .bf16 A hb)
        (transpose S128x256 [1, 0] (truncf .bf16 W hb) ht) (constant (F := Ideal) S2000x256 .f32 0x00000000#32) (ValueIdx.ix2 r j)
      = Sage.lin (Sage.rowOf A r) (Sage.matOf W) j := by
  refine (matmulA_apply _ _ r j).trans ?_
  refine Finset.sum_congr rfl fun k _ => ?_
  exact congrArg (A (ValueIdx.ix2 r k) * ·) (ValueIdx.transpose_ix2_apply _ ht k j)

/-- A tile times the transpose of a `[128, 256]` weight matrix, read at `(r, j)`: `Sage.lin` of row `r`. -/
theorem linB_apply (Y : FVec Ideal S2000x256 .f32) (W : FVec Ideal S128x256 .f32) (hb : FTy.bits .bf16 < FTy.bits .f32)
    (ht : S128x256.Transposes [1, 0] S256x128) (r : Fin 2000) (j : Fin 128) :
    matmul dot_S2000x256_S256x128_S2000x128_1_0_0_1_n_n none (truncf .bf16 Y hb)
        (transpose S256x128 [1, 0] (truncf .bf16 W hb) ht) (constant (F := Ideal) S2000x128 .f32 0x00000000#32) (ValueIdx.ix2 r j)
      = Sage.lin (fun k => Y (ValueIdx.ix2 r k)) (Sage.matOf W) j := by
  refine (matmulB_apply _ _ r j).trans ?_
  refine Finset.sum_congr rfl fun k _ => ?_
  exact congrArg (Y (ValueIdx.ix2 r k) * ·) (ValueIdx.transpose_ix2_apply _ ht k j)

/-- A one-row bias, cast to its own shape and broadcast down the rows of a tile, reads at `(r, j)` the bias at `j`. -/
theorem biasRow_apply {o : ℕ} (b : FVec Ideal ⟨2, ![1, o]⟩ .f32) (hc : (⟨2, ![1, o]⟩ : Shape).ShapeCasts ⟨2, ![1, o]⟩)
    (hb : (⟨2, ![1, o]⟩ : Shape).Broadcasts ⟨2, ![2000, o]⟩) (r : Fin 2000) (j : Fin o) :
    broadcastTo ⟨2, ![2000, o]⟩ (shapeCast ⟨2, ![1, o]⟩ b hc) hb (ValueIdx.ix2 r j) = Sage.rowOf b 0 j := by
  rw [shapeCast_self]
  exact ValueIdx.broadcastTo_1b_ab_apply b hb r j

/-- The L2 normalisation of a tile's rows, read at `(r, j)`: the entry over the larger of the root of the row's sum of
    squares and the clamp, which is `Sage.normalize` of row `r`. -/
theorem norm_apply (acc : FVec Ideal S2000x256 .f32) (hr : S2000x256.Reduces [1] S2000) (hφ : FKind.Formats .f32)
    (hacc : (0x00000000#32 : BitVec 32) = FKind.add.neutral .f32 hφ) (hc : S2000.ShapeCasts S2000x1)
    (hb : S2000x1.Broadcasts S2000x256) (r : Fin 2000) (j : Fin 256) :
    divf acc (broadcastTo S2000x256 (maximumf (sqrt (shapeCast S2000x1
        (multiReduction (F := Ideal) .add [1] S2000 (mulf acc acc) 0x00000000#32 hr hφ hacc) hc))
        (broadcast S2000x1 (Scalar.ofBits (F := Ideal) .f32 0x2B8CBCCC#32))) hb) (ValueIdx.ix2 r j)
      = Sage.normalize (fun k => acc (ValueIdx.ix2 r k)) j := by
  refine (ValueIdx.divf_apply _ _ _).trans ?_
  refine congrArg (Ideal.div (acc (ValueIdx.ix2 r j))) ?_
  refine (Cert.Columns.broadcastTo_a1_ab_apply _ hb r j).trans ?_
  refine (ValueIdx.maximumf_apply _ _ _).trans ?_
  refine congrArg₂ max ?_ rfl
  show Ideal.sqrt _ = Ideal.sqrt _
  refine congrArg Ideal.sqrt ?_
  refine (Cert.Columns.shapeCast_a_a1_apply _ hc r 0).trans ?_
  exact Cert.Columns.multiReduction_add_row (mulf acc acc) hr hφ hacc r

/-- The first kernel's body at an entry of its tile: row `r` of the tile of means and of the tile of features, through
    the SAGE layer, the linear map and the ReLU. -/
theorem pay_apply (v0 v3 : Vec Ideal S2000x128 .f32) (v5 v7 : Vec Ideal S256x128 .f32) (v14 : Vec Ideal S1x256 .f32)
    (v27 : Vec Ideal S128x256 .f32) (v31 : Vec Ideal S1x128 .f32) (r : Fin 2000) (j : Fin 128) :
    k0_pay1 (F := Ideal) v0 v3 v5 v7 v14 v27 v31 (ValueIdx.ix2 r j)
      = Sage.hidden (Sage.rowOf v0 r) (Sage.rowOf v3 r) (Sage.matOf v5) (Sage.rowOf v14 0) (Sage.matOf v7)
          (Sage.matOf v27) (Sage.rowOf v31 0) j := by
  unfold k0_pay1
  -- the ReLU and the second bias are pointwise: what is left is the linear map of the normalised row
  refine (ValueIdx.maximumf_apply _ _ _).trans ?_
  refine congrArg₂ max ?_ rfl
  refine (ValueIdx.addf_apply _ _ _).trans ?_
  refine congrArg₂ (· + ·) ?_ (biasRow_apply v31 _ _ r j)
  refine (linB_apply _ v27 _ _ r j).trans ?_
  refine congrArg (fun y => Sage.lin y (Sage.matOf v27) j) (funext fun k => ?_)
  -- entry `k` of the normalised row
  refine (norm_apply _ _ _ _ _ _ r k).trans ?_
  refine congrArg (fun v => Sage.normalize v k) (funext fun k' => ?_)
  -- entry `k'` of the pre-activation: the two products, then the bias
  refine (ValueIdx.addf_apply _ _ _).trans ?_
  refine congrArg₂ (· + ·) ((ValueIdx.addf_apply _ _ _).trans (congrArg₂ (· + ·) ?_ ?_)) (biasRow_apply v14 _ _ r k')
  · rw [shapeCast_self]
    exact linA_apply v0 v5 _ _ r k'
  · exact linA_apply v3 v7 _ _ r k'

end Cert.KernelIdeal.Region0

end
-- ==== Proof.K0Val.lean ====
import proofs.«113117_j14345190769012_1_alg».proof.Proof.Gen.KernelIdeal.Frame
import proofs.«113117_j14345190769012_1_alg».proof.Proof.K0Pay
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-! ## From the 50 tiles to the array

The first kernel runs at 50 grid points. At point `t` it reads rows `2000 t … 2000 t + 1999` of the array of neighbour
means and of the array of node features, reads the two weight matrices of the layer, the matrix of the linear map and the two
biases whole, and writes rows `2000 t … 2000 t + 1999` of its result. Every entry of a result row is `Sage.hidden` of the
SAME row of the two inputs, so tile `t` of the result is tile `t` of `Sage.hiddenArr` of the whole arrays; the 50 tiles
fill the 100000 rows, so the array ends as `Sage.hiddenArr`. -/

/-- The stores' and loads' offsets inside a tile are zero on both axes. -/
theorem zero_offsets : (![0, 0] : Fin 2 → Nat) = fun _ => 0 := funext fun a => by fin_cases a <;> rfl

/-- The grid has 50 points. -/
theorem fifty_tiles : cfg0.N = 50 := by decide

/-- The block index of every window at every grid point, by evaluation over the 50 points: the two row-tiled inputs and
    the result are at block `(t, 0)`, the five weight arrays at block `(0, 0)`. -/
theorem tile_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point is below 50. -/
theorem tile_lt (t : Fin cfg0.N) : t.val < 50 := lt_of_lt_of_eq t.isLt fifty_tiles

/-- The row of the array that row `p` of tile `t` is: `2000 t + p`. -/
abbrev rowAt (t : Fin cfg0.N) (p : Fin 2000) : Fin 100000 := ⟨2000 * t.val + p.val, by have := tile_lt t; omega⟩

/-! ### What each window's block holds

An entry of a block sits in its array, on each axis, at the block index times the block's extent plus its coordinate
inside the block. -/

/-- Row `p` of tile `t` of the neighbour means is row `2000 t + p` of the array of means. -/
theorem means_row (V : (c : Dev nD) → (b : Ref sig .tc) → Buf (Elt Ideal) ((c : Thread nD τ).loc b)) (c : Dev nD) (t : Fin cfg0.N) (p : Fin 2000) :
    Sage.rowOf (n := 2000) (d := 128) (iblk0 V c 0 t) p = Sage.rowOf (V c main_v22) (rowAt t p) := by
  obtain ⟨e00, e01, e10, e11, e20, e21, e30, e31, e40, e41, e50, e51, e60, e61, e70, e71⟩ := tile_indices t
  funext k
  show V c main_v22 (((cfg0.win 0).blk t).view.emb (ValueIdx.ix2 p k)) = V c main_v22 (ValueIdx.ix2 (rowAt t p) k)
  congr 1
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- Row `p` of tile `t` of the node features is row `2000 t + p` of the array of features. -/
theorem feats_row (V : (c : Dev nD) → (b : Ref sig .tc) → Buf (Elt Ideal) ((c : Thread nD τ).loc b)) (c : Dev nD) (t : Fin cfg0.N) (p : Fin 2000) :
    Sage.rowOf (n := 2000) (d := 128) (iblk0 V c 1 t) p = Sage.rowOf (V c main_arg0) (rowAt t p) := by
  obtain ⟨e00, e01, e10, e11, e20, e21, e30, e31, e40, e41, e50, e51, e60, e61, e70, e71⟩ := tile_indices t
  funext k
  show V c main_arg0 (((cfg0.win 1).blk t).view.emb (ValueIdx.ix2 p k)) = V c main_arg0 (ValueIdx.ix2 (rowAt t p) k)
  congr 1
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

/-- The neighbour weights are read whole at every point. -/
theorem Wl_whole (V : (c : Dev nD) → (b : Ref sig .tc) → Buf (Elt Ideal) ((c : Thread nD τ).loc b)) (c : Dev nD) (t : Fin cfg0.N) :
    (iblk0 V c 2 t : Vec Ideal S256x128 .f32) = V c main_arg2 := by
  obtain ⟨e00, e01, e10, e11, e20, e21, e30, e31, e40, e41, e50, e51, e60, e61, e70, e71⟩ := tile_indices t
  funext y
  show V c main_arg2 (((cfg0.win 2).blk t).view.emb y) = V c main_arg2 y
  congr 1
  funext a; apply Fin.ext
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The layer's bias (one row of 256) is read whole at every point. -/
theorem bias_whole (V : (c : Dev nD) → (b : Ref sig .tc) → Buf (Elt Ideal) ((c : Thread nD τ).loc b)) (c : Dev nD) (t : Fin cfg0.N) :
    (iblk0 V c 3 t : Vec Ideal S1x256 .f32) = V c main_v23 := by
  obtain ⟨e00, e01, e10, e11, e20, e21, e30, e31, e40, e41, e50, e51, e60, e61, e70, e71⟩ := tile_indices t
  funext y
  show V c main_v23 (((cfg0.win 3).blk t).view.emb y) = V c main_v23 y
  congr 1
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The root weights are read whole at every point. -/
theorem Wr_whole (V : (c : Dev nD) → (b : Ref sig .tc) → Buf (Elt Ideal) ((c : Thread nD τ).loc b)) (c : Dev nD) (t : Fin cfg0.N) :
    (iblk0 V c 4 t : Vec Ideal S256x128 .f32) = V c main_arg4 := by
  obtain ⟨e00, e01, e10, e11, e20, e21, e30, e31, e40, e41, e50, e51, e60, e61, e70, e71⟩ := tile_indices t
  funext y
  show V c main_arg4 (((cfg0.win 4).blk t).view.emb y) = V c main_arg4 y
  congr 1
  funext a; apply Fin.ext
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- The linear map's matrix is read whole at every point. -/
theorem Wlin_whole (V : (c : Dev nD) → (b : Ref sig .tc) → Buf (Elt Ideal) ((c : Thread nD τ).loc b)) (c : Dev nD) (t : Fin cfg0.N) :
    (iblk0 V c 5 t : Vec Ideal S128x256 .f32) = V c main_arg5 := by
  obtain ⟨e00, e01, e10, e11, e20, e21, e30, e31, e40, e41, e50, e51, e60, e61, e70, e71⟩ := tile_indices t
  funext y
  show V c main_arg5 (((cfg0.win 5).blk t).view.emb y) = V c main_arg5 y
  congr 1
  funext a; apply Fin.ext
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- The linear map's bias (one row of 128) is read whole at every point. -/
theorem blin_whole (V : (c : Dev nD) → (b : Ref sig .tc) → Buf (Elt Ideal) ((c : Thread nD τ).loc b)) (c : Dev nD) (t : Fin cfg0.N) :
    (iblk0 V c 6 t : Vec Ideal S1x128 .f32) = V c main_v24 := by
  obtain ⟨e00, e01, e10, e11, e20, e21, e30, e31, e40, e41, e50, e51, e60, e61, e70, e71⟩ := tile_indices t
  funext y
  show V c main_v24 (((cfg0.win 6).blk t).view.emb y) = V c main_v24 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Entry `(p, q)` of the result's tile `t` sits in the result array at row `2000 t + p`, column `q`. -/
theorem out_entry (t : Fin cfg0.N) (p : Fin 2000) (q : Fin 128) :
    ((cfg0.win 7).blk t).view.emb (ValueIdx.ix2 p q) = ValueIdx.ix2 (rowAt t p) q := by
  obtain ⟨e00, e01, e10, e11, e20, e21, e30, e31, e40, e41, e50, e51, e60, e61, e70, e71⟩ := tile_indices t
  funext a; apply Fin.ext
  match a with
  | ⟨0, _⟩ => show win0_7.index t (0 : Fin 2) * 2000 + 1 * p.val = 2000 * t.val + p.val; omega
  | ⟨1, _⟩ => show win0_7.index t (1 : Fin 2) * 128 + 1 * q.val = q.val; omega

/-! ### One tile -/

/-- WHAT POINT `t` WRITES BACK is tile `t` of `Sage.hiddenArr` of the arrays the region finds at entry: the body's one
    store is its payload over the whole tile; at entry `(p, q)` the payload is `Sage.hidden` of row `p` of the two input
    tiles and of the weights, and those are row `2000 t + p` of the input arrays and the weight arrays themselves. -/
theorem tile_written (V : (c : Dev nD) → (b : Ref sig .tc) → Buf (Elt Ideal) ((c : Thread nD τ).loc b)) (c : Dev nD) (t : Fin cfg0.N) :
    (dat0 (F := Ideal) V c).flushed 7 t = ((cfg0.win 7).blk t).view.read (Elt Ideal)
      (Sage.hiddenArr (V c main_v22) (V c main_arg0) (V c main_arg2) (Sage.rowOf (V c main_v23) 0) (V c main_arg4)
          (V c main_arg5) (Sage.rowOf (V c main_v24) 0)) := by
  show (cfg0.win 7).cut (grid0.coords t) ((dat0 V c).after 7 t) = _
  rw [after0_7]
  unfold out0_7
  rw [View.canon_unit_zero zero_offsets]
  simp only [View.ld_unit_zero (S := S2000x128) zero_offsets, View.ld_unit_zero (S := S256x128) zero_offsets,
    View.ld_unit_zero (S := S1x256) zero_offsets, View.ld_unit_zero (S := S128x256) zero_offsets,
    View.ld_unit_zero (S := S1x128) zero_offsets]
  funext y
  obtain ⟨p, q, rfl⟩ : ∃ (p : Fin 2000) (q : Fin 128), y = ValueIdx.ix2 p q := ⟨y 0, y 1, ValueIdx.eq_ix2 y⟩
  show k0_pay1 (F := Ideal) (iblk0 V c 0 t) (iblk0 V c 1 t) (iblk0 V c 2 t) (iblk0 V c 4 t) (iblk0 V c 3 t) (iblk0 V c 5 t)
      (iblk0 V c 6 t) (ValueIdx.ix2 p q)
    = Sage.hiddenArr (V c main_v22) (V c main_arg0) (V c main_arg2) (Sage.rowOf (V c main_v23) 0) (V c main_arg4)
        (V c main_arg5) (Sage.rowOf (V c main_v24) 0) (((cfg0.win 7).blk t).view.emb (ValueIdx.ix2 p q))
  rw [pay_apply, out_entry, Sage.hiddenArr_apply, means_row, feats_row, Wl_whole, bias_whole, Wr_whole, Wlin_whole,
    blin_whole]

/-! ### The tiles fill the array -/

/-- An index of the result array is in tile `t` iff each coordinate is in the tile's range on its axis. -/
theorem mem_tile (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v25).slice (win0_7.rect t)).set ↔ _
  rw [View.set_slice_whole, Rect.mem_set_unit]
  exact Iff.rfl

/-- Every index of the result array is in a tile some point writes back: row `r` is in tile `r / 2000`. -/
theorem tiles_cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [fifty_tiles]; omega⟩, rfl⟩
  obtain ⟨e00, e01, e10, e11, e20, e21, e30, e31, e40, e41, e50, e51, e60, e61, e70, e71⟩ := tile_indices t
  refine ⟨t, flush0_7 t, ?_⟩
  rw [mem_tile]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega

/-- The first kernel's output array after its 50 tiles are written back: the first stage at every node, of the arrays
    the region finds at its entry (`V`). -/
theorem arr (V : (c : Dev nD) → (b : Ref sig .tc) → Buf (Elt Ideal) ((c : Thread nD τ).loc b)) (c : Dev nD) :
    (dat0 (F := Ideal) V c).arrAt 7 cfg0.N
      = Sage.hiddenArr (V c main_v22) (V c main_arg0) (V c main_arg2) (Sage.rowOf (V c main_v23) 0) (V c main_arg4)
          (V c main_arg5) (Sage.rowOf (V c main_v24) 0) := by
  exact (dat0 V c).arrAt_eq_of_cover 7 _ (fun t _ => tile_written V c t) tiles_cover

end Cert.KernelIdeal.Region0

end
-- ==== Proof.K1Pay.lean ====
import proofs.«113117_j14345190769012_1_alg».proof.Proof.Gen.KernelIdeal.Skeleton
import proofs.«113117_j14345190769012_1_alg».proof.Proof.Spec
import proofs.«113117_j14345190769012_1_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe

/-! ## The two contractions read at an entry

A contraction of a [2000,128] operand with a [128,o] operand over the shared axis reads, at entry (r, j), the sum over
k of the products of the operands at (r, k) and (k, j). The four coordinate facts name the operand indices. -/

theorem lhs_d128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_d128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_d128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_d128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The [2000,128] × [128,128] contraction into the zero tile, at entry (r, j). -/
theorem matmul_d128_apply (A : FVec Ideal S2000x128 .bf16) (B : FVec Ideal S128x128 .bf16) (r : Fin 2000) (j : Fin 128) :
    matmul dot_S2000x128_S128x128_S2000x128_1_0_0_1_n_n none A B (constant (F := Ideal) S2000x128 .f32 0x00000000#32) (ValueIdx.ix2 r j)
      = ∑ k : Fin 128, A (ValueIdx.ix2 r k) * B (ValueIdx.ix2 k j) := by
  refine (Ideal.matmul_constant_zero_apply dot_S2000x128_S128x128_S2000x128_1_0_0_1_n_n none A B (ValueIdx.ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 r j) ((ValueIdx.contrEquiv1 dot_S2000x128_S128x128_S2000x128_1_0_0_1_n_n 128 rfl rfl).symm k) = ValueIdx.ix2 r k := funext fun a => Fin.ext (by
    match a with
    | ⟨0, _⟩ => exact lhs_d128_0 _ _
    | ⟨1, _⟩ => exact (lhs_d128_1 _ _).trans hk)
  have er : dot_S2000x128_S128x128_S2000x128_1_0_0_1_n_n.rhsIdx (ValueIdx.ix2 r j) ((ValueIdx.contrEquiv1 dot_S2000x128_S128x128_S2000x128_1_0_0_1_n_n 128 rfl rfl).symm k) = ValueIdx.ix2 k j := funext fun a => Fin.ext (by
    match a with
    | ⟨0, _⟩ => exact (rhs_d128_0 _ _).trans hk
    | ⟨1, _⟩ => exact rhs_d128_1 _ _)
  rw [el, er]

theorem lhs_d2_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_d2_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_d2_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_d2_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The [2000,128] × [128,2] contraction into the zero tile, at entry (r, c). -/
theorem matmul_d2_apply (A : FVec Ideal S2000x128 .bf16) (B : FVec Ideal S128x2 .bf16) (r : Fin 2000) (c : Fin 2) :
    matmul dot_S2000x128_S128x2_S2000x2_1_0_0_1_n_n none A B (constant (F := Ideal) S2000x2 .f32 0x00000000#32) (ValueIdx.ix2 r c)
      = ∑ k : Fin 128, A (ValueIdx.ix2 r k) * B (ValueIdx.ix2 k c) := by
  refine (Ideal.matmul_constant_zero_apply dot_S2000x128_S128x2_S2000x2_1_0_0_1_n_n none A B (ValueIdx.ix2 r c)).trans ?_
  rw [← Equiv.sum_comp (ValueIdx.contrEquiv1 dot_S2000x128_S128x2_S2000x2_1_0_0_1_n_n 128 rfl rfl).symm]
  refine Finset.sum_congr rfl fun k _ => ?_
  have hk := ValueIdx.contrEquiv1_symm_val dot_S2000x128_S128x2_S2000x2_1_0_0_1_n_n 128 rfl rfl k
  have el : dot_S2000x128_S128x2_S2000x2_1_0_0_1_n_n.lhsIdx (ValueIdx.ix2 r c) ((ValueIdx.contrEquiv1 dot_S2000x128_S128x2_S2000x2_1_0_0_1_n_n 128 rfl rfl).symm k) = ValueIdx.ix2 r k := funext fun a => Fin.ext (by
    match a with
    | ⟨0, _⟩ => exact lhs_d2_0 _ _
    | ⟨1, _⟩ => exact (lhs_d2_1 _ _).trans hk)
  have er : dot_S2000x128_S128x2_S2000x2_1_0_0_1_n_n.rhsIdx (ValueIdx.ix2 r c) ((ValueIdx.contrEquiv1 dot_S2000x128_S128x2_S2000x2_1_0_0_1_n_n 128 rfl rfl).symm k) = ValueIdx.ix2 k c := funext fun a => Fin.ext (by
    match a with
    | ⟨0, _⟩ => exact (rhs_d2_0 _ _).trans hk
    | ⟨1, _⟩ => exact rhs_d2_1 _ _)
  rw [el, er]

/-! ## One row of the second layer

Each stage of the tile computation reads, at row r, only row r of its operands. -/

/-- A [2000,128] tile times the transpose of a [128,128] weight, at entry (r, j): the row's linear map. -/
theorem lin_tile_apply (X : Vec Ideal S2000x128 .f32) (W : Vec Ideal S128x128 .f32) (r : Fin 2000) (j : Fin 128) :
    matmul dot_S2000x128_S128x128_S2000x128_1_0_0_1_n_n none
        (truncf .bf16 (shapeCast S2000x128 X shapeCasts_S2000x128_S2000x128) bitsLt_bf16_f32)
        (transpose S128x128 [1, 0] (truncf .bf16 W bitsLt_bf16_f32) transposes_S128x128_p1_0_S128x128)
        (constant (F := Ideal) S2000x128 .f32 0x00000000#32) (ValueIdx.ix2 r j)
      = Sage.lin (Sage.rowOf X r) (Sage.matOf W) j := by
  refine (matmul_d128_apply _ _ r j).trans ?_
  refine Finset.sum_congr rfl fun k _ => ?_
  refine congrArg₂ (· * ·) ?_ ?_
  · exact congrFun (shapeCast_self X shapeCasts_S2000x128_S2000x128) (ValueIdx.ix2 r k)
  · exact ValueIdx.transpose_ix2_apply _ transposes_S128x128_p1_0_S128x128 k j

/-- The bias row [1,128] broadcast down the 2000 rows reads, at (r, j), the bias at j. -/
theorem bias128_apply (b : Vec Ideal S1x128 .f32) (r : Fin 2000) (j : Fin 128) :
    broadcastTo S2000x128 (shapeCast S1x128 b shapeCasts_S1x128_S1x128) broadcasts_S1x128_S2000x128 (ValueIdx.ix2 r j)
      = Sage.rowOf b 0 j :=
  (ValueIdx.broadcastTo_1b_ab_apply _ broadcasts_S1x128_S2000x128 r j).trans
    (congrFun (shapeCast_self b shapeCasts_S1x128_S1x128) (ValueIdx.ix2 (0 : Fin 1) j))

/-- The bias row [1,2] broadcast down the 2000 rows reads, at (r, c), the bias at c. -/
theorem bias2_apply (b : Vec Ideal S1x2 .f32) (r : Fin 2000) (c : Fin 2) :
    broadcastTo S2000x2 (shapeCast S1x2 b shapeCasts_S1x2_S1x2) broadcasts_S1x2_S2000x2 (ValueIdx.ix2 r c)
      = Sage.rowOf b 0 c :=
  (ValueIdx.broadcastTo_1b_ab_apply _ broadcasts_S1x2_S2000x2 r c).trans
    (congrFun (shapeCast_self b shapeCasts_S1x2_S1x2) (ValueIdx.ix2 (0 : Fin 1) c))

/-- A tile divided by the clamped norm of each of its rows reads, at (r, j), the normalised row r at j. -/
theorem normalize_tile_apply (acc : FVec Ideal S2000x128 .f32) (r : Fin 2000) (j : Fin 128) :
    divf acc
        (broadcastTo S2000x128
          (maximumf
            (sqrt (shapeCast S2000x1
              (multiReduction (F := Ideal) .add [1] S2000 (mulf acc acc) 0x00000000#32 reduces_S2000x128_S2000 (.inl rfl) rfl)
              shapeCasts_S2000_S2000x1))
            (broadcast S2000x1 (Scalar.ofBits (F := Ideal) .f32 0x2B8CBCCC#32)))
          broadcasts_S2000x1_S2000x128) (ValueIdx.ix2 r j)
      = Sage.normalize (fun k => acc (ValueIdx.ix2 r k)) j := by
  refine (ValueIdx.divf_apply _ _ _).trans ?_
  refine congrArg (Ideal.div (acc (ValueIdx.ix2 r j))) ?_
  refine (Cert.Columns.broadcastTo_a1_ab_apply _ broadcasts_S2000x1_S2000x128 r j).trans ?_
  refine (ValueIdx.maximumf_apply _ _ _).trans ?_
  refine congrArg (fun t => max (Ideal.sqrt t) Sage.eps) ?_
  refine (Cert.Columns.shapeCast_a_a1_apply _ shapeCasts_S2000_S2000x1 r (0 : Fin 1)).trans ?_
  exact Cert.Columns.multiReduction_add_row (mulf acc acc) reduces_S2000x128_S2000 (.inl rfl) rfl r

/-- The second kernel's first store at an entry of its tile: the normalised SAGE layer of row `r`. -/
theorem payY_apply (v0 v3 : Vec Ideal S2000x128 .f32) (v6 v8 : Vec Ideal S128x128 .f32) (v15 : Vec Ideal S1x128 .f32)
    (r : Fin 2000) (j : Fin 128) :
    k1_pay2 (F := Ideal) v0 v3 v6 v8 v15 (ValueIdx.ix2 r j)
      = Sage.sage (Sage.rowOf v0 r) (Sage.rowOf v3 r) (Sage.matOf v6) (Sage.rowOf v15 0) (Sage.matOf v8) j := by
  unfold k1_pay2 Sage.sage
  refine (normalize_tile_apply _ r j).trans ?_
  refine congrArg (fun v => Sage.normalize v j) (funext fun k => ?_)
  unfold Sage.pre
  refine (ValueIdx.addf_apply _ _ _).trans ?_
  refine congrArg₂ (· + ·) ?_ (bias128_apply v15 r k)
  refine (ValueIdx.addf_apply _ _ _).trans ?_
  exact congrArg₂ (· + ·) (lin_tile_apply v0 v6 r k) (lin_tile_apply v3 v8 r k)

/-! ## One row of the class probabilities -/

/-- The running maximum of each row from −∞, taken against −∞ once more: at row r, the maximum the softmax subtracts. -/
theorem rowMax_tile_apply (L : FVec Ideal S2000x2 .f32) (r : Fin 2000) :
    maximumf (broadcast S2000 (Scalar.ofBits (F := Ideal) .f32 0xFF800000#32))
        (multiReduction (F := Ideal) .maximumf [1] S2000 L 0xFF800000#32 reduces_S2000x2_S2000 (.inl rfl) rfl) (ValueIdx.ix1 r)
      = Sage.rowMax (fun c => L (ValueIdx.ix2 r c)) := by
  refine (ValueIdx.maximumf_apply _ _ _).trans ?_
  refine congrArg (max Sage.ninf) ?_
  refine (Ideal.multiReduction_maximumf_single L 0xFF800000#32 reduces_S2000x2_S2000 (.inl rfl) rfl (ValueIdx.ix1 r)).trans ?_
  exact congrArg (fun f : Fin 2 → EReal => (Finset.univ : Finset (Fin 2)).fold max Sage.ninf f)
    (funext fun c => congrArg L (funext fun ax => Fin.ext (by match ax with | ⟨0, _⟩ => rfl | ⟨1, _⟩ => rfl)))

/-- The tile shifted by its row maxima and exponentiated, at (r, c). -/
theorem expShift_tile_apply (L : FVec Ideal S2000x2 .f32) (r : Fin 2000) (c : Fin 2) :
    exp (subf L
        (broadcastTo S2000x2
          (shapeCast S2000x1
            (maximumf (broadcast S2000 (Scalar.ofBits (F := Ideal) .f32 0xFF800000#32))
              (multiReduction (F := Ideal) .maximumf [1] S2000 L 0xFF800000#32 reduces_S2000x2_S2000 (.inl rfl) rfl))
            shapeCasts_S2000_S2000x1)
          broadcasts_S2000x1_S2000x2)) (ValueIdx.ix2 r c)
      = Ideal.exp (L (ValueIdx.ix2 r c) - Sage.rowMax (fun c' => L (ValueIdx.ix2 r c'))) := by
  refine congrArg Ideal.exp ?_
  refine (ValueIdx.subf_apply _ _ _).trans ?_
  refine congrArg (fun t => L (ValueIdx.ix2 r c) - t) ?_
  refine (Cert.Columns.broadcastTo_a1_ab_apply _ broadcasts_S2000x1_S2000x2 r c).trans ?_
  refine (Cert.Columns.shapeCast_a_a1_apply _ shapeCasts_S2000_S2000x1 r (0 : Fin 1)).trans ?_
  exact rowMax_tile_apply L r

/-- A [2000,2] tile divided by the sum of each of its rows, at (r, c). -/
theorem rowDiv_tile_apply (E : FVec Ideal S2000x2 .f32) (r : Fin 2000) (c : Fin 2) :
    divf E
        (broadcastTo S2000x2
          (shapeCast S2000x1
            (multiReduction (F := Ideal) .add [1] S2000 E 0x00000000#32 reduces_S2000x2_S2000 (.inl rfl) rfl)
            shapeCasts_S2000_S2000x1)
          broadcasts_S2000x1_S2000x2) (ValueIdx.ix2 r c)
      = Ideal.div (E (ValueIdx.ix2 r c)) (∑ c' : Fin 2, E (ValueIdx.ix2 r c')) := by
  refine (ValueIdx.divf_apply _ _ _).trans ?_
  refine congrArg (Ideal.div (E (ValueIdx.ix2 r c))) ?_
  refine (Cert.Columns.broadcastTo_a1_ab_apply _ broadcasts_S2000x1_S2000x2 r c).trans ?_
  refine (Cert.Columns.shapeCast_a_a1_apply _ shapeCasts_S2000_S2000x1 r (0 : Fin 1)).trans ?_
  exact Cert.Columns.multiReduction_add_row E reduces_S2000x2_S2000 (.inl rfl) rfl r

/-- The softmax tile at (r, c): the softmax of row r of the logits. -/
theorem softmax_tile_apply (L : FVec Ideal S2000x2 .f32) (r : Fin 2000) (c : Fin 2) :
    k1_pay1 (F := Ideal) L (ValueIdx.ix2 r c) = Sage.softmax (fun c' => L (ValueIdx.ix2 r c')) c := by
  unfold k1_pay1 Sage.softmax
  refine (rowDiv_tile_apply _ r c).trans ?_
  exact congrArg₂ Ideal.div (expShift_tile_apply L r c) (Finset.sum_congr rfl fun c' _ => expShift_tile_apply L r c')

/-- The logits tile at (r, c): class logit c of the normalised second-layer row r. -/
theorem logits_apply (v0 v3 : Vec Ideal S2000x128 .f32) (v6 v8 : Vec Ideal S128x128 .f32) (v15 : Vec Ideal S1x128 .f32)
    (v29 : Vec Ideal S2x128 .f32) (v33 : Vec Ideal S1x2 .f32) (r : Fin 2000) (c : Fin 2) :
    k1_pay3 (F := Ideal) v0 v3 v6 v8 v15 v29 v33 (ValueIdx.ix2 r c)
      = Sage.logit (Sage.sage (Sage.rowOf v0 r) (Sage.rowOf v3 r) (Sage.matOf v6) (Sage.rowOf v15 0) (Sage.matOf v8))
          (Sage.matOf v29) (Sage.rowOf v33 0) c := by
  unfold k1_pay3 Sage.logit
  refine (ValueIdx.addf_apply _ _ _).trans ?_
  refine congrArg₂ (· + ·) ?_ (bias2_apply v33 r c)
  refine (matmul_d2_apply _ _ r c).trans ?_
  refine Finset.sum_congr rfl fun k _ => ?_
  refine congrArg₂ (· * ·) ?_ ?_
  · exact payY_apply v0 v3 v6 v8 v15 r k
  · exact ValueIdx.transpose_ix2_apply _ transposes_S2x128_p1_0_S128x2 k c

/-- The second kernel's second store at an entry of its tile: the softmax of the logits of row `r`. -/
theorem payP_apply (v0 v3 : Vec Ideal S2000x128 .f32) (v6 v8 : Vec Ideal S128x128 .f32) (v15 : Vec Ideal S1x128 .f32)
    (v29 : Vec Ideal S2x128 .f32) (v33 : Vec Ideal S1x2 .f32) (r : Fin 2000) (k : Fin 2) :
    k1_pay1 (F := Ideal) (k1_pay3 (F := Ideal) v0 v3 v6 v8 v15 v29 v33) (ValueIdx.ix2 r k)
      = Sage.probs (Sage.rowOf v0 r) (Sage.rowOf v3 r) (Sage.matOf v6) (Sage.rowOf v15 0) (Sage.matOf v8)
          (Sage.matOf v29) (Sage.rowOf v33 0) k := by
  refine (softmax_tile_apply _ r k).trans ?_
  unfold Sage.probs
  exact congrArg (fun l => Sage.softmax l k) (funext fun c => logits_apply v0 v3 v6 v8 v15 v29 v33 r c)

end Cert.KernelIdeal.Region1

end
-- ==== Proof.K1Val.lean ====
import proofs.«113117_j14345190769012_1_alg».proof.Proof.Gen.KernelIdeal.Frame
import proofs.«113117_j14345190769012_1_alg».proof.Proof.K1Pay
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-- The zero offsets of a whole-buffer access. -/
theorem hz : (![0, 0] : Fin 2 → Nat) = fun _ => 0 := funext fun a => by fin_cases a <;> rfl

/-- The index maps over the grid: a row window's block index is the point itself on the rows and zero on the
    columns; a weight window's is zero on both axes. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The grid has 50 points. -/
theorem N1 : cfg1.N = 50 := by decide +kernel

section Blocks

variable (V : (c : Dev nD) → (b : Ref sig .tc) → Buf (Elt Ideal) ((c : Thread nD τ).loc b)) (c : Dev nD)

/-! ## The input tiles, row by row: a tile's row `p` at point `t` is the array's row `2000 t + p` -/

/-- Row `p` of the first input's tile (the aggregated neighbours). -/
theorem row_blk0 (t : Fin cfg1.N) (p : Fin 2000) (r : Fin 100000) (hr : r.val = 2000 * t.val + p.val) :
    Sage.rowOf (iblk1 (F := Ideal) V c 0 t : Vec Ideal S2000x128 .f32) p
      = Sage.rowOf (V c main_v37 : S100000x128.Idx → EReal) r := by
  obtain ⟨⟨e0, e1⟩, -⟩ := idx_facts t
  funext k
  unfold Sage.rowOf iblk1
  rw [View.read_apply]
  show V c main_v37 (((cfg1.win 0).blk t).view.emb (ValueIdx.ix2 p k)) = V c main_v37 (ValueIdx.ix2 r k)
  congr 1
  funext a; apply Fin.ext
  match a with
  | ⟨0, _⟩ => show win1_0.index t (0 : Fin 2) * 2000 + 1 * p.val = r.val; omega
  | ⟨1, _⟩ => show win1_0.index t (1 : Fin 2) * 128 + 1 * k.val = k.val; omega

/-- Row `p` of the second input's tile (the nodes' own features). -/
theorem row_blk1 (t : Fin cfg1.N) (p : Fin 2000) (r : Fin 100000) (hr : r.val = 2000 * t.val + p.val) :
    Sage.rowOf (iblk1 (F := Ideal) V c 1 t : Vec Ideal S2000x128 .f32) p
      = Sage.rowOf (V c main_v25 : S100000x128.Idx → EReal) r := by
  obtain ⟨-, ⟨e0, e1⟩, -⟩ := idx_facts t
  funext k
  unfold Sage.rowOf iblk1
  rw [View.read_apply]
  show V c main_v25 (((cfg1.win 1).blk t).view.emb (ValueIdx.ix2 p k)) = V c main_v25 (ValueIdx.ix2 r k)
  congr 1
  funext a; apply Fin.ext
  match a with
  | ⟨0, _⟩ => show win1_1.index t (0 : Fin 2) * 2000 + 1 * p.val = r.val; omega
  | ⟨1, _⟩ => show win1_1.index t (1 : Fin 2) * 128 + 1 * k.val = k.val; omega

/-! ## The weight windows: the block at every point is the whole array -/

/-- The neighbour weights. -/
theorem mat_blk2 (t : Fin cfg1.N) :
    Sage.matOf (iblk1 (F := Ideal) V c 2 t : Vec Ideal S128x128 .f32) = Sage.matOf (V c main_arg7 : S128x128.Idx → EReal) := by
  obtain ⟨-, -, ⟨e0, e1⟩, -⟩ := idx_facts t
  funext j k
  unfold Sage.matOf iblk1
  rw [View.read_apply]
  show V c main_arg7 (((cfg1.win 2).blk t).view.emb (ValueIdx.ix2 j k)) = V c main_arg7 (ValueIdx.ix2 j k)
  congr 1
  funext a; apply Fin.ext
  match a with
  | ⟨0, _⟩ => show win1_2.index t (0 : Fin 2) * 128 + 1 * j.val = j.val; omega
  | ⟨1, _⟩ => show win1_2.index t (1 : Fin 2) * 128 + 1 * k.val = k.val; omega

/-- The bias, a one-row matrix. -/
theorem row_blk3 (t : Fin cfg1.N) :
    Sage.rowOf (iblk1 (F := Ideal) V c 3 t : Vec Ideal S1x128 .f32) 0 = Sage.rowOf (V c main_v38 : S1x128.Idx → EReal) 0 := by
  obtain ⟨-, -, -, ⟨e0, e1⟩, -⟩ := idx_facts t
  funext k
  unfold Sage.rowOf iblk1
  rw [View.read_apply]
  show V c main_v38 (((cfg1.win 3).blk t).view.emb (ValueIdx.ix2 0 k)) = V c main_v38 (ValueIdx.ix2 0 k)
  congr 1
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The root weights. -/
theorem mat_blk4 (t : Fin cfg1.N) :
    Sage.matOf (iblk1 (F := Ideal) V c 4 t : Vec Ideal S128x128 .f32) = Sage.matOf (V c main_arg9 : S128x128.Idx → EReal) := by
  obtain ⟨-, -, -, -, ⟨e0, e1⟩, -⟩ := idx_facts t
  funext j k
  unfold Sage.matOf iblk1
  rw [View.read_apply]
  show V c main_arg9 (((cfg1.win 4).blk t).view.emb (ValueIdx.ix2 j k)) = V c main_arg9 (ValueIdx.ix2 j k)
  congr 1
  funext a; apply Fin.ext
  match a with
  | ⟨0, _⟩ => show win1_4.index t (0 : Fin 2) * 128 + 1 * j.val = j.val; omega
  | ⟨1, _⟩ => show win1_4.index t (1 : Fin 2) * 128 + 1 * k.val = k.val; omega

/-- The classifier's weights. -/
theorem mat_blk5 (t : Fin cfg1.N) :
    Sage.matOf (iblk1 (F := Ideal) V c 5 t : Vec Ideal S2x128 .f32) = Sage.matOf (V c main_arg10 : S2x128.Idx → EReal) := by
  obtain ⟨-, -, -, -, -, ⟨e0, e1⟩, -⟩ := idx_facts t
  funext j k
  unfold Sage.matOf iblk1
  rw [View.read_apply]
  show V c main_arg10 (((cfg1.win 5).blk t).view.emb (ValueIdx.ix2 j k)) = V c main_arg10 (ValueIdx.ix2 j k)
  congr 1
  funext a; apply Fin.ext
  match a with
  | ⟨0, _⟩ => show win1_5.index t (0 : Fin 2) * 2 + 1 * j.val = j.val; omega
  | ⟨1, _⟩ => show win1_5.index t (1 : Fin 2) * 128 + 1 * k.val = k.val; omega

/-- The classifier's bias, a one-row matrix. -/
theorem row_blk6 (t : Fin cfg1.N) :
    Sage.rowOf (iblk1 (F := Ideal) V c 6 t : Vec Ideal S1x2 .f32) 0 = Sage.rowOf (V c main_v39 : S1x2.Idx → EReal) 0 := by
  obtain ⟨-, -, -, -, -, -, ⟨e0, e1⟩, -⟩ := idx_facts t
  funext k
  unfold Sage.rowOf iblk1
  rw [View.read_apply]
  show V c main_v39 (((cfg1.win 6).blk t).view.emb (ValueIdx.ix2 0 k)) = V c main_v39 (ValueIdx.ix2 0 k)
  congr 1
  funext a; apply Fin.ext
  match a with
  | ⟨0, _⟩ => show win1_6.index t (0 : Fin 2) * 1 + 1 * 0 = 0; omega
  | ⟨1, _⟩ => show win1_6.index t (1 : Fin 2) * 2 + 1 * k.val = k.val; omega

/-! ## The output tiles: where an entry of a tile lands in the array -/

/-- Entry `(p, q)` of the first output's tile at point `t` is entry `(2000 t + p, q)` of the array. -/
theorem emb7 (t : Fin cfg1.N) (p : Fin 2000) (q : Fin 128) (r : Fin 100000) (hr : r.val = 2000 * t.val + p.val) :
    ((cfg1.win 7).blk t).view.emb (ValueIdx.ix2 p q) = (ValueIdx.ix2 r q : S100000x128.Idx) := by
  obtain ⟨-, -, -, -, -, -, -, ⟨e0, e1⟩, -⟩ := idx_facts t
  funext a; apply Fin.ext
  match a with
  | ⟨0, _⟩ => show win1_7.index t (0 : Fin 2) * 2000 + 1 * p.val = r.val; omega
  | ⟨1, _⟩ => show win1_7.index t (1 : Fin 2) * 128 + 1 * q.val = q.val; omega

/-- Entry `(p, q)` of the second output's tile at point `t` is entry `(2000 t + p, q)` of the array. -/
theorem emb8 (t : Fin cfg1.N) (p : Fin 2000) (q : Fin 2) (r : Fin 100000) (hr : r.val = 2000 * t.val + p.val) :
    ((cfg1.win 8).blk t).view.emb (ValueIdx.ix2 p q) = (ValueIdx.ix2 r q : S100000x2.Idx) := by
  obtain ⟨-, -, -, -, -, -, -, -, ⟨e0, e1⟩⟩ := idx_facts t
  funext a; apply Fin.ext
  match a with
  | ⟨0, _⟩ => show win1_8.index t (0 : Fin 2) * 2000 + 1 * p.val = r.val; omega
  | ⟨1, _⟩ => show win1_8.index t (1 : Fin 2) * 2 + 1 * q.val = q.val; omega

/-- A tile's row stays inside the array. -/
theorem row_lt (t : Fin cfg1.N) (p : Fin 2000) : 2000 * t.val + p.val < 100000 := by
  have ht : t.val < 50 := Nat.lt_of_lt_of_eq t.isLt N1
  have hp := p.isLt
  omega

/-! ## What each point writes back -/

/-- Point `t` writes back block `t` of the normalised layer of the arrays the region finds. -/
theorem flushedY (t : Fin cfg1.N) :
    (dat1 (F := Ideal) V c).flushed 7 t = ((cfg1.win 7).blk t).view.read (Elt Ideal)
      (Sage.sageArr (V c main_v37) (V c main_v25) (V c main_arg7) (Sage.rowOf (V c main_v38) 0) (V c main_arg9)) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ValueIdx.ix2 p q := ⟨y 0, y 1, ValueIdx.eq_ix2 y⟩
  show k1_pay2 (F := Ideal) (iblk1 V c 0 t) (iblk1 V c 1 t) (iblk1 V c 2 t) (iblk1 V c 4 t) (iblk1 V c 3 t) (ValueIdx.ix2 p q)
    = Sage.sageArr (V c main_v37) (V c main_v25) (V c main_arg7) (Sage.rowOf (V c main_v38) 0) (V c main_arg9)
        (((cfg1.win 7).blk t).view.emb (ValueIdx.ix2 p q))
  rw [payY_apply, emb7 t p q ⟨2000 * t.val + p.val, row_lt t p⟩ rfl, Sage.sageArr_apply,
    row_blk0 V c t p ⟨2000 * t.val + p.val, row_lt t p⟩ rfl, row_blk1 V c t p ⟨2000 * t.val + p.val, row_lt t p⟩ rfl,
    mat_blk2 V c t, row_blk3 V c t, mat_blk4 V c t]

/-- Point `t` writes back block `t` of the class probabilities of the arrays the region finds. -/
theorem flushedP (t : Fin cfg1.N) :
    (dat1 (F := Ideal) V c).flushed 8 t = ((cfg1.win 8).blk t).view.read (Elt Ideal)
      (Sage.probsArr (V c main_v37) (V c main_v25) (V c main_arg7) (Sage.rowOf (V c main_v38) 0) (V c main_arg9)
        (V c main_arg10) (Sage.rowOf (V c main_v39) 0)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S1x128) hz,
    View.ld_unit_zero (S := S2x128) hz, View.ld_unit_zero (S := S1x2) hz]
  refine funext fun (y : S2000x2.Idx) => ?_
  obtain ⟨p, q, rfl⟩ : ∃ (p : Fin 2000) (q : Fin 2), y = ValueIdx.ix2 p q := ⟨y 0, y 1, ValueIdx.eq_ix2 y⟩
  show k1_pay1 (F := Ideal) (k1_pay3 (F := Ideal) (iblk1 V c 0 t) (iblk1 V c 1 t) (iblk1 V c 2 t) (iblk1 V c 4 t) (iblk1 V c 3 t)
        (iblk1 V c 5 t) (iblk1 V c 6 t)) (ValueIdx.ix2 p q)
    = Sage.probsArr (V c main_v37) (V c main_v25) (V c main_arg7) (Sage.rowOf (V c main_v38) 0) (V c main_arg9)
        (V c main_arg10) (Sage.rowOf (V c main_v39) 0) (((cfg1.win 8).blk t).view.emb (ValueIdx.ix2 p q))
  rw [payP_apply, emb8 t p q ⟨2000 * t.val + p.val, row_lt t p⟩ rfl, Sage.probsArr_apply,
    row_blk0 V c t p ⟨2000 * t.val + p.val, row_lt t p⟩ rfl, row_blk1 V c t p ⟨2000 * t.val + p.val, row_lt t p⟩ rfl,
    mat_blk2 V c t, row_blk3 V c t, mat_blk4 V c t, mat_blk5 V c t, row_blk6 V c t]

end Blocks

/-! ## The tiles fill the arrays -/

/-- An index of the first output array is in point `t`'s block iff each coordinate is in the block's range. -/
theorem mem_blk7 (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v40_0).slice (win1_7.rect t)).set ↔ _
  rw [View.set_slice_whole, Rect.mem_set_unit]
  exact Iff.rfl

/-- An index of the second output array is in point `t`'s block iff each coordinate is in the block's range. -/
theorem mem_blk8 (t : Fin cfg1.N) (i : S100000x2.Idx) :
    i ∈ ((cfg1.win 8).blk t).view.set ↔ ∀ a : Fin 2, win1_8.index t a * S2000x2.size a ≤ (i a).val
      ∧ (i a).val < win1_8.index t a * S2000x2.size a + S2000x2.size a := by
  show i ∈ ((View.whole main_v40_1).slice (win1_8.rect t)).set ↔ _
  rw [View.set_slice_whole, Rect.mem_set_unit]
  exact Iff.rfl

/-- Row `r` of the first output array is written by point `r / 2000`. -/
theorem cover7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : (i 0).val / 2000 < cfg1.N := by rw [N1]; omega
  obtain ⟨-, -, -, -, -, -, -, ⟨e0, e1⟩, -⟩ := idx_facts ⟨(i 0).val / 2000, hN⟩
  refine ⟨⟨(i 0).val / 2000, hN⟩, flush1_7 _, ?_⟩
  rw [mem_blk7]
  intro a
  match a with
  | ⟨0, _⟩ =>
    show win1_7.index ⟨(i 0).val / 2000, hN⟩ (0 : Fin 2) * 2000 ≤ (i 0).val
      ∧ (i 0).val < win1_7.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, hN⟩ (1 : Fin 2) * 128 ≤ (i 1).val
      ∧ (i 1).val < win1_7.index ⟨(i 0).val / 2000, hN⟩ (1 : Fin 2) * 128 + 128
    rw [e1]; omega

/-- Row `r` of the second output array is written by point `r / 2000`. -/
theorem cover8 (i : S100000x2.Idx) :
    ∃ t : Fin cfg1.N, (cfg1.win 8).flush t = true ∧ i ∈ ((cfg1.win 8).blk t).view.set := by
  have hi0 : (i 0).val < 100000 := (i 0).isLt
  have hi1 : (i 1).val < 2 := (i 1).isLt
  have hN : (i 0).val / 2000 < cfg1.N := by rw [N1]; omega
  obtain ⟨-, -, -, -, -, -, -, -, ⟨e0, e1⟩⟩ := idx_facts ⟨(i 0).val / 2000, hN⟩
  refine ⟨⟨(i 0).val / 2000, hN⟩, flush1_8 _, ?_⟩
  rw [mem_blk8]
  intro a
  match a with
  | ⟨0, _⟩ =>
    show win1_8.index ⟨(i 0).val / 2000, hN⟩ (0 : Fin 2) * 2000 ≤ (i 0).val
      ∧ (i 0).val < win1_8.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, hN⟩ (1 : Fin 2) * 2 ≤ (i 1).val
      ∧ (i 1).val < win1_8.index ⟨(i 0).val / 2000, hN⟩ (1 : Fin 2) * 2 + 2
    rw [e1]; omega

/-- The second kernel's first output array after its 50 tiles are written back. -/
theorem arrY (V : (c : Dev nD) → (b : Ref sig .tc) → Buf (Elt Ideal) ((c : Thread nD τ).loc b)) (c : Dev nD) :
    (dat1 (F := Ideal) V c).arrAt 7 cfg1.N
      = Sage.sageArr (V c main_v37) (V c main_v25) (V c main_arg7) (Sage.rowOf (V c main_v38) 0) (V c main_arg9) :=
  (dat1 (F := Ideal) V c).arrAt_eq_of_cover 7 _ (fun t _ => flushedY V c t) cover7

/-- The second kernel's second output array after its 50 tiles are written back. -/
theorem arrP (V : (c : Dev nD) → (b : Ref sig .tc) → Buf (Elt Ideal) ((c : Thread nD τ).loc b)) (c : Dev nD) :
    (dat1 (F := Ideal) V c).arrAt 8 cfg1.N
      = Sage.probsArr (V c main_v37) (V c main_v25) (V c main_arg7) (Sage.rowOf (V c main_v38) 0) (V c main_arg9)
          (V c main_arg10) (Sage.rowOf (V c main_v39) 0) :=
  (dat1 (F := Ideal) V c).arrAt_eq_of_cover 8 _ (fun t _ => flushedP V c t) cover8

end Cert.KernelIdeal.Region1

end
-- ==== Proof.RefLayer1.lean ====
import proofs.«113117_j14345190769012_1_alg».proof.Proof.Gen.ReferenceIdeal.Run
import proofs.«113117_j14345190769012_1_alg».proof.Proof.Gen.ReferenceIdeal.Read
import proofs.«113117_j14345190769012_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Layers

open Cert.ReferenceIdeal Cert.ReferenceIdeal.Gen Cert.ReferenceIdeal.Read
open Idealize.ShloMosaic Idealize.ShloMosaic.TcCoe

section Stages

variable (x0 : (⟨S100000x128, .f32⟩ : BufTy).Contents (Elt Ideal)) (x1 : (⟨S2x1600000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S128x256, .f32⟩ : BufTy).Contents (Elt Ideal))
  (x6 : (⟨S128, .f32⟩ : BufTy).Contents (Elt Ideal))

/-! ## The layer's weights and biases as the reference lays them out -/

/-- The neighbour weight, transposed: its entry `(k, j)` is the weight's entry `(j, k)`. -/
theorem wl_at (k : Fin 128) (j : Fin 256) :
    val_main_v23 (F := Ideal) x2 (ValueIdx.ix2 k j) = x2 (ValueIdx.ix2 j k) := by
  rw [val_main_v23_apply]
  exact congrArg x2 (funext fun a => Fin.ext (by match a with | ⟨0, _⟩ => rfl | ⟨1, _⟩ => rfl))

/-- The root weight, transposed: its entry `(k, j)` is the weight's entry `(j, k)`. -/
theorem wr_at (k : Fin 128) (j : Fin 256) :
    val_main_v28 (F := Ideal) x4 (ValueIdx.ix2 k j) = x4 (ValueIdx.ix2 j k) := by
  rw [val_main_v28_apply]
  exact congrArg x4 (funext fun a => Fin.ext (by match a with | ⟨0, _⟩ => rfl | ⟨1, _⟩ => rfl))

/-- The linear map's weight, transposed: its entry `(k, j)` is the weight's entry `(j, k)`. -/
theorem wlin_at (k : Fin 256) (j : Fin 128) :
    val_main_v36 (F := Ideal) x5 (ValueIdx.ix2 k j) = x5 (ValueIdx.ix2 j k) := by
  rw [val_main_v36_apply]
  exact congrArg x5 (funext fun a => Fin.ext (by match a with | ⟨0, _⟩ => rfl | ⟨1, _⟩ => rfl))

/-- The layer's bias, broadcast over the rows in two steps: at `(r, j)` it is the bias's entry `j`. -/
theorem bias_at (r : Fin 100000) (j : Fin 256) :
    val_main_v26 (F := Ideal) x3 (ValueIdx.ix2 r j) = x3 (ValueIdx.ix1 j) := by
  rw [val_main_v26_apply, val_main_v25_apply]
  exact congrArg x3 (funext fun a => Fin.ext (by match a with | ⟨0, _⟩ => rfl))

/-- The linear map's bias, broadcast over the rows in two steps: at `(r, j)` it is the bias's entry `j`. -/
theorem blin_at (r : Fin 100000) (j : Fin 128) :
    val_main_v39 (F := Ideal) x6 (ValueIdx.ix2 r j) = x6 (ValueIdx.ix1 j) := by
  rw [val_main_v39_apply, val_main_v38_apply]
  exact congrArg x6 (funext fun a => Fin.ext (by match a with | ⟨0, _⟩ => rfl))

/-! ## The pre-activation -/

/-- The neighbour term: row `r` of the aggregated means times the transposed neighbour weight. -/
theorem nbr_at (r : Fin 100000) (j : Fin 256) :
    val_main_v24 (F := Ideal) x0 x1 x2 (ValueIdx.ix2 r j)
      = Sage.lin (Sage.rowOf (val_main_v22 (F := Ideal) x0 x1) r) (Sage.matOf x2) j := by
  rw [val_main_v24_apply]
  refine Finset.sum_congr rfl fun k _ => ?_
  have hl : lidx_main_v24 (ValueIdx.ix2 r j) k = ValueIdx.ix2 r k :=
    funext fun a => Fin.ext (by match a with | ⟨0, _⟩ => rfl | ⟨1, _⟩ => rfl)
  have hr : ridx_main_v24 (ValueIdx.ix2 r j) k = ValueIdx.ix2 k j :=
    funext fun a => Fin.ext (by match a with | ⟨0, _⟩ => rfl | ⟨1, _⟩ => rfl)
  rw [hl, hr, wl_at]
  rfl

/-- The root term: row `r` of the features times the transposed root weight. -/
theorem root_at (r : Fin 100000) (j : Fin 256) :
    val_main_v29 (F := Ideal) x0 x4 (ValueIdx.ix2 r j) = Sage.lin (Sage.rowOf x0 r) (Sage.matOf x4) j := by
  rw [val_main_v29_apply]
  refine Finset.sum_congr rfl fun k _ => ?_
  have hl : lidx_main_v29 (ValueIdx.ix2 r j) k = ValueIdx.ix2 r k :=
    funext fun a => Fin.ext (by match a with | ⟨0, _⟩ => rfl | ⟨1, _⟩ => rfl)
  have hr : ridx_main_v29 (ValueIdx.ix2 r j) k = ValueIdx.ix2 k j :=
    funext fun a => Fin.ext (by match a with | ⟨0, _⟩ => rfl | ⟨1, _⟩ => rfl)
  rw [hl, hr, wr_at]
  rfl

/-- The pre-activation: the reference adds the bias before the root term; the sum is the same. -/
theorem pre_at (r : Fin 100000) (j : Fin 256) :
    val_main_v30 (F := Ideal) x0 x1 x2 x3 x4 (ValueIdx.ix2 r j)
      = Sage.pre (Sage.rowOf (val_main_v22 (F := Ideal) x0 x1) r) (Sage.rowOf x0 r) (Sage.matOf x2) (Sage.vecOf x3)
          (Sage.matOf x4) j := by
  rw [val_main_v30_apply, val_main_v27_apply, nbr_at, bias_at, root_at, Ideal.addf_def, Ideal.addf_def]
  exact Sage.pre_bias_first (Sage.rowOf (val_main_v22 (F := Ideal) x0 x1) r) (Sage.rowOf x0 r) (Sage.matOf x2)
    (Sage.vecOf x3) (Sage.matOf x4) j

/-! ## The norm and the normalised row -/

/-- The sum of squares of row `r` of the pre-activation: the reduction starts from zero. -/
theorem sumsq_at (r : Fin 100000) :
    val_main_call0_v1 (F := Ideal) x0 x1 x2 x3 x4 (ValueIdx.ix1 r)
      = ∑ k : Fin 256, Sage.pre (Sage.rowOf (val_main_v22 (F := Ideal) x0 x1) r) (Sage.rowOf x0 r) (Sage.matOf x2)
            (Sage.vecOf x3) (Sage.matOf x4) k
          * Sage.pre (Sage.rowOf (val_main_v22 (F := Ideal) x0 x1) r) (Sage.rowOf x0 r) (Sage.matOf x2)
            (Sage.vecOf x3) (Sage.matOf x4) k := by
  rw [val_main_call0_v1_apply, val_main_call0_cst_apply, Ideal.ofBits_def, Ideal.ofBits_zero_f32, zero_add]
  refine Finset.sum_congr rfl fun k _ => ?_
  have hi : idx_main_call0_v1 (ValueIdx.ix1 r) k = ValueIdx.ix2 r k :=
    funext fun a => Fin.ext (by match a with | ⟨0, _⟩ => rfl | ⟨1, _⟩ => rfl)
  rw [hi, val_main_call0_v0_apply, pre_at]
  rfl

/-- The clamped norm of row `r`, as the reference broadcasts it along the row. -/
theorem norm_at (r : Fin 100000) (j : Fin 256) :
    val_main_v34 (F := Ideal) x0 x1 x2 x3 x4 (ValueIdx.ix2 r j)
      = max (Ideal.sqrt (∑ k : Fin 256,
            Sage.pre (Sage.rowOf (val_main_v22 (F := Ideal) x0 x1) r) (Sage.rowOf x0 r) (Sage.matOf x2)
              (Sage.vecOf x3) (Sage.matOf x4) k
            * Sage.pre (Sage.rowOf (val_main_v22 (F := Ideal) x0 x1) r) (Sage.rowOf x0 r) (Sage.matOf x2)
              (Sage.vecOf x3) (Sage.matOf x4) k)) Sage.eps := by
  rw [val_main_v34_apply, val_main_v33_apply, val_main_v31_apply, val_main_call0_v2_apply, val_main_v32_apply,
    val_main_cst_4_apply]
  have hi : idx_main_call0_v2 (idx_main_v34 (ValueIdx.ix2 r j)) = ValueIdx.ix1 r :=
    funext fun a => Fin.ext (by match a with | ⟨0, _⟩ => rfl)
  rw [hi, sumsq_at, Ideal.maximumf_def, Ideal.hostUnary_sqrt_def, Ideal.ofBits_def]
  rfl

/-- The normalised layer at `(r, j)`. -/
theorem sage_at (r : Fin 100000) (j : Fin 256) :
    val_main_v35 (F := Ideal) x0 x1 x2 x3 x4 (ValueIdx.ix2 r j)
      = Sage.sage (Sage.rowOf (val_main_v22 (F := Ideal) x0 x1) r) (Sage.rowOf x0 r) (Sage.matOf x2) (Sage.vecOf x3)
          (Sage.matOf x4) j := by
  rw [val_main_v35_apply, pre_at, norm_at]
  rfl

/-! ## The linear map and the clamp at zero -/

/-- The linear map on the normalised row. -/
theorem lin_at (r : Fin 100000) (j : Fin 128) :
    val_main_v37 (F := Ideal) x0 x1 x2 x3 x4 x5 (ValueIdx.ix2 r j)
      = Sage.lin (Sage.sage (Sage.rowOf (val_main_v22 (F := Ideal) x0 x1) r) (Sage.rowOf x0 r) (Sage.matOf x2)
          (Sage.vecOf x3) (Sage.matOf x4)) (Sage.matOf x5) j := by
  rw [val_main_v37_apply]
  refine Finset.sum_congr rfl fun k _ => ?_
  have hl : lidx_main_v37 (ValueIdx.ix2 r j) k = ValueIdx.ix2 r k :=
    funext fun a => Fin.ext (by match a with | ⟨0, _⟩ => rfl | ⟨1, _⟩ => rfl)
  have hr : ridx_main_v37 (ValueIdx.ix2 r j) k = ValueIdx.ix2 k j :=
    funext fun a => Fin.ext (by match a with | ⟨0, _⟩ => rfl | ⟨1, _⟩ => rfl)
  rw [hl, hr, wlin_at, sage_at]
  rfl

/-- The first stage at `(r, j)`: the linear map plus its bias, clamped below at zero. -/
theorem hidden_at (r : Fin 100000) (j : Fin 128) :
    val_main_v42 (F := Ideal) x0 x1 x2 x3 x4 x5 x6 (ValueIdx.ix2 r j)
      = Sage.hidden (Sage.rowOf (val_main_v22 (F := Ideal) x0 x1) r) (Sage.rowOf x0 r) (Sage.matOf x2) (Sage.vecOf x3)
          (Sage.matOf x4) (Sage.matOf x5) (Sage.vecOf x6) j := by
  rw [val_main_v42_apply, val_main_v40_apply, lin_at, blin_at, val_main_v41_apply, val_main_cst_5_apply]
  rfl

end Stages

/-- The reference's first stage (the SAGE layer on the aggregated means `%22` and the features, normalised, then the
    linear map and the ReLU: its value `%42`) is the row function `hidden` at every node. -/
theorem hidden_eq (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) :
    val_main_v42 (F := Ideal) x0 x1 x2 x3 x4 x5 x6
      = Sage.hiddenArr (val_main_v22 (F := Ideal) x0 x1) x0 x2 (Sage.vecOf x3) x4 x5 (Sage.vecOf x6) := by
  funext i
  obtain ⟨r, j, rfl⟩ : ∃ (r : Fin 100000) (j : Fin 128), i = ValueIdx.ix2 r j := ⟨i 0, i 1, ValueIdx.eq_ix2 i⟩
  rw [Sage.hiddenArr_apply]
  exact hidden_at x0 x1 x2 x3 x4 x5 x6 r j

end Cert.ReferenceIdeal.Layers

end
-- ==== Proof.RefLayer2.lean ====
import proofs.«113117_j14345190769012_1_alg».proof.Proof.Gen.ReferenceIdeal.Run
import proofs.«113117_j14345190769012_1_alg».proof.Proof.Gen.ReferenceIdeal.Read
import proofs.«113117_j14345190769012_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Layers

open Cert.ReferenceIdeal Cert.ReferenceIdeal.Gen Cert.ReferenceIdeal.Read
open Idealize.ShloMosaic Idealize.ShloMosaic.TcCoe

/-! ## The index maps of the second layer at an index given by its coordinates -/

theorem lidx63_ix (r : Fin 100000) (j k : Fin 128) : lidx_main_v63 (ValueIdx.ix2 r j) k = ValueIdx.ix2 r k := funext fun a => Fin.ext (by match a with | ⟨0, _⟩ => rfl | ⟨1, _⟩ => rfl)
theorem ridx63_ix (r : Fin 100000) (j k : Fin 128) : ridx_main_v63 (ValueIdx.ix2 r j) k = ValueIdx.ix2 k j := funext fun a => Fin.ext (by match a with | ⟨0, _⟩ => rfl | ⟨1, _⟩ => rfl)
theorem idx62_ix (k j : Fin 128) : idx_main_v62 (ValueIdx.ix2 k j) = ValueIdx.ix2 j k := funext fun a => Fin.ext (by match a with | ⟨0, _⟩ => rfl | ⟨1, _⟩ => rfl)
theorem lidx68_ix (r : Fin 100000) (j k : Fin 128) : lidx_main_v68 (ValueIdx.ix2 r j) k = ValueIdx.ix2 r k := funext fun a => Fin.ext (by match a with | ⟨0, _⟩ => rfl | ⟨1, _⟩ => rfl)
theorem ridx68_ix (r : Fin 100000) (j k : Fin 128) : ridx_main_v68 (ValueIdx.ix2 r j) k = ValueIdx.ix2 k j := funext fun a => Fin.ext (by match a with | ⟨0, _⟩ => rfl | ⟨1, _⟩ => rfl)
theorem idx67_ix (k j : Fin 128) : idx_main_v67 (ValueIdx.ix2 k j) = ValueIdx.ix2 j k := funext fun a => Fin.ext (by match a with | ⟨0, _⟩ => rfl | ⟨1, _⟩ => rfl)
theorem idx65_ix (r : Fin 100000) (j : Fin 128) : idx_main_v65 (ValueIdx.ix2 r j) = ValueIdx.ix2 (⟨0, Nat.one_pos⟩ : Fin 1) j := funext fun a => Fin.ext (by match a with | ⟨0, _⟩ => rfl | ⟨1, _⟩ => rfl)
theorem idx64_ix (z : Fin 1) (j : Fin 128) : idx_main_v64 (ValueIdx.ix2 z j) = ValueIdx.ix1 j := funext fun a => Fin.ext (by match a with | ⟨0, _⟩ => rfl)
theorem idx73_ix (r : Fin 100000) (j : Fin 128) : idx_main_v73 (ValueIdx.ix2 r j) = ValueIdx.ix2 r (⟨0, Nat.one_pos⟩ : Fin 1) := funext fun a => Fin.ext (by match a with | ⟨0, _⟩ => rfl | ⟨1, _⟩ => rfl)
theorem idx_call1_v2_ix (r : Fin 100000) (z : Fin 1) : idx_main_call1_v2 (ValueIdx.ix2 r z) = ValueIdx.ix1 r := funext fun a => Fin.ext (by match a with | ⟨0, _⟩ => rfl)
theorem idx_call1_v1_ix (r : Fin 100000) (k : Fin 128) : idx_main_call1_v1 (ValueIdx.ix1 r) k = ValueIdx.ix2 r k := funext fun a => Fin.ext (by match a with | ⟨0, _⟩ => rfl | ⟨1, _⟩ => rfl)

/-! ## The second layer, stage by stage, at row `r` -/

/-- The pre-activation `%69` at `(r, j)`: the two products with the transposed weights and the bias, the bias added
    before the root term. -/
theorem v69_at (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (r : Fin 100000) (j : Fin 128) :
    val_main_v69 (F := Ideal) x0 x1 x2 x3 x4 x5 x6 x7 x8 x9 (ValueIdx.ix2 r j) = Sage.pre (Sage.rowOf (val_main_v61 (F := Ideal) x0 x1 x2 x3 x4 x5 x6) r) (Sage.rowOf (val_main_v42 (F := Ideal) x0 x1 x2 x3 x4 x5 x6) r) (Sage.matOf x7) (Sage.vecOf x8) (Sage.matOf x9) j := by
  rw [← Sage.pre_bias_first]
  rw [val_main_v69_apply, val_main_v66_apply, val_main_v63_apply, val_main_v68_apply, val_main_v65_apply, idx65_ix,
    val_main_v64_apply, idx64_ix]
  generalize val_main_v61 (F := Ideal) x0 x1 x2 x3 x4 x5 x6 = A
  generalize val_main_v42 (F := Ideal) x0 x1 x2 x3 x4 x5 x6 = X
  simp only [val_main_v62_apply, val_main_v67_apply, lidx63_ix, ridx63_ix, idx62_ix, lidx68_ix, ridx68_ix, idx67_ix]
  rfl

/-- The clamped norm `%73` at `(r, j)`: the root of the row's sum of squares of `%69`, against `ε`. -/
theorem v73_at (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (r : Fin 100000) (j : Fin 128) :
    val_main_v73 (F := Ideal) x0 x1 x2 x3 x4 x5 x6 x7 x8 x9 (ValueIdx.ix2 r j)
      = max (Ideal.sqrt (∑ k : Fin 128, val_main_v69 (F := Ideal) x0 x1 x2 x3 x4 x5 x6 x7 x8 x9 (ValueIdx.ix2 r k)
          * val_main_v69 (F := Ideal) x0 x1 x2 x3 x4 x5 x6 x7 x8 x9 (ValueIdx.ix2 r k))) Sage.eps := by
  rw [val_main_v73_apply, idx73_ix, val_main_v72_apply, val_main_v70_apply, val_main_call1_v2_apply, idx_call1_v2_ix,
    val_main_call1_v1_apply, val_main_v71_apply, val_main_cst_12_apply, val_main_call1_cst_apply,
    Ideal.maximumf_def, Ideal.hostUnary_sqrt_def, Ideal.ofBits_def, Ideal.ofBits_def, Ideal.ofBits_zero_f32, zero_add]
  refine congrArg (fun s => max (Ideal.sqrt s) Sage.eps) (Finset.sum_congr rfl fun k _ => ?_)
  rw [idx_call1_v1_ix]
  exact (val_main_call1_v0_apply x0 x1 x2 x3 x4 x5 x6 x7 x8 x9 (ValueIdx.ix2 r k)).trans (Ideal.mulf_def _ _)
/-- The reference's second layer (its value `%74`): the normalised SAGE layer on the aggregated means `%61` of the first
    stage's output `%42` and on that output, at every node. -/
theorem y_eq (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v74 (F := Ideal) x0 x1 x2 x3 x4 x5 x6 x7 x8 x9
      = Sage.sageArr (val_main_v61 (F := Ideal) x0 x1 x2 x3 x4 x5 x6) (val_main_v42 (F := Ideal) x0 x1 x2 x3 x4 x5 x6)
          x7 (Sage.vecOf x8) x9 := by
  funext i
  obtain ⟨r, j, rfl⟩ : ∃ (r : Fin 100000) (j : Fin 128), i = ValueIdx.ix2 r j := ⟨i 0, i 1, ValueIdx.eq_ix2 i⟩
  rw [Sage.sageArr_apply, val_main_v74_apply, v73_at]
  simp only [v69_at]
  generalize val_main_v61 (F := Ideal) x0 x1 x2 x3 x4 x5 x6 = A
  generalize val_main_v42 (F := Ideal) x0 x1 x2 x3 x4 x5 x6 = X
  rfl

/-! ## The index maps of the classifier at an index given by its coordinates -/

theorem lidx76_ix (r : Fin 100000) (c : Fin 2) (k : Fin 128) : lidx_main_v76 (ValueIdx.ix2 r c) k = ValueIdx.ix2 r k := funext fun a => Fin.ext (by match a with | ⟨0, _⟩ => rfl | ⟨1, _⟩ => rfl)
theorem ridx76_ix (r : Fin 100000) (c : Fin 2) (k : Fin 128) : ridx_main_v76 (ValueIdx.ix2 r c) k = ValueIdx.ix2 k c := funext fun a => Fin.ext (by match a with | ⟨0, _⟩ => rfl | ⟨1, _⟩ => rfl)
theorem idx75_ix (k : Fin 128) (c : Fin 2) : idx_main_v75 (ValueIdx.ix2 k c) = ValueIdx.ix2 c k := funext fun a => Fin.ext (by match a with | ⟨0, _⟩ => rfl | ⟨1, _⟩ => rfl)
theorem idx78_ix (r : Fin 100000) (c : Fin 2) : idx_main_v78 (ValueIdx.ix2 r c) = ValueIdx.ix2 (⟨0, Nat.one_pos⟩ : Fin 1) c := funext fun a => Fin.ext (by match a with | ⟨0, _⟩ => rfl | ⟨1, _⟩ => rfl)
theorem idx77_ix (z : Fin 1) (c : Fin 2) : idx_main_v77 (ValueIdx.ix2 z c) = ValueIdx.ix1 c := funext fun a => Fin.ext (by match a with | ⟨0, _⟩ => rfl)

/-! ## The class probabilities at row `r` -/

/-- The logits `%79` at `(r, c)`: the second layer's row against the transposed classifier weights, plus its bias. -/
theorem v79_at (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S2x128, .f32⟩ : BufTy).Contents (Elt Ideal)) (x11 : (⟨S2, .f32⟩ : BufTy).Contents (Elt Ideal)) (r : Fin 100000) (c : Fin 2) :
    val_main_v79 (F := Ideal) x0 x1 x2 x3 x4 x5 x6 x7 x8 x9 x10 x11 (ValueIdx.ix2 r c) = Sage.logit (Sage.sage (Sage.rowOf (val_main_v61 (F := Ideal) x0 x1 x2 x3 x4 x5 x6) r) (Sage.rowOf (val_main_v42 (F := Ideal) x0 x1 x2 x3 x4 x5 x6) r) (Sage.matOf x7) (Sage.vecOf x8) (Sage.matOf x9)) (Sage.matOf x10) (Sage.vecOf x11) c := by
  rw [val_main_v79_apply, val_main_v76_apply, val_main_v78_apply, idx78_ix, val_main_v77_apply, idx77_ix, y_eq,
    Ideal.addf_def]
  generalize val_main_v61 (F := Ideal) x0 x1 x2 x3 x4 x5 x6 = A
  generalize val_main_v42 (F := Ideal) x0 x1 x2 x3 x4 x5 x6 = X
  simp only [val_main_v75_apply, lidx76_ix, ridx76_ix, idx75_ix, Sage.sageArr_apply]
  rfl

section Softmax

variable (x0 : (⟨S100000x128, .f32⟩ : BufTy).Contents (Elt Ideal)) (x1 : (⟨S2x1600000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S128x256, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S2x128, .f32⟩ : BufTy).Contents (Elt Ideal)) (x11 : (⟨S2, .f32⟩ : BufTy).Contents (Elt Ideal))

/-- The running maximum of row `r` of the logits: a fold of `max` over the two classes from the `-∞` word. The
    reduction is over one axis, so at row `r` it folds over that axis's coordinates; `max` on the extended reals is
    commutative and associative, so the order of the fold does not matter. -/
theorem fold_at (r : Fin 100000) :
    val_main_v80 (F := Ideal) x0 x1 x2 x3 x4 x5 x6 x7 x8 x9 x10 x11 (ValueIdx.ix1 r)
      = (Finset.univ : Finset (Fin 2)).fold max Sage.ninf (fun c => val_main_v79 (F := Ideal) x0 x1 x2 x3 x4 x5 x6 x7 x8 x9 x10 x11 (ValueIdx.ix2 r c)) := by
  unfold val_main_v80
  generalize val_main_v79 (F := Ideal) x0 x1 x2 x3 x4 x5 x6 x7 x8 x9 x10 x11 = y
  have h : S100000x2.Reduces [1] S100000 := by decide
  have key := Host.reduce_eq_fold_single (max : EReal → EReal → EReal) y (val_main_cst_13 (F := Ideal))
    reducesTo_S100000x2_S100000_d1 h h_S_ (ValueIdx.ix1 r)
  refine key.trans ?_
  rw [val_main_cst_13_apply, Ideal.ofBits_def]
  have hl : ∀ c : Fin 2, h.lift (ValueIdx.ix1 r) c = ValueIdx.ix2 r c := fun c =>
    funext fun a => Fin.ext (by match a with | ⟨0, _⟩ => rfl | ⟨1, _⟩ => rfl)
  exact congrArg (fun g : Fin 2 → EReal => (Finset.univ : Finset (Fin 2)).fold max Sage.ninf g)
    (funext fun c => congrArg y (hl c))

/-- The maximum the softmax subtracts, at row `r`: `-∞` against the fold. -/
theorem rowMax_at (r : Fin 100000) :
    val_main_v82 (F := Ideal) x0 x1 x2 x3 x4 x5 x6 x7 x8 x9 x10 x11 (ValueIdx.ix1 r) = Sage.rowMax (fun c => val_main_v79 (F := Ideal) x0 x1 x2 x3 x4 x5 x6 x7 x8 x9 x10 x11 (ValueIdx.ix2 r c)) := by
  rw [val_main_v82_apply, val_main_v81_apply, val_main_cst_14_apply, fold_at, Ideal.maximumf_def, Ideal.ofBits_def]
  rfl

/-- The same maximum broadcast along the row. -/
theorem shift_at (r : Fin 100000) (k : Fin 2) :
    val_main_v84 (F := Ideal) x0 x1 x2 x3 x4 x5 x6 x7 x8 x9 x10 x11 (ValueIdx.ix2 r k) = Sage.rowMax (fun c => val_main_v79 (F := Ideal) x0 x1 x2 x3 x4 x5 x6 x7 x8 x9 x10 x11 (ValueIdx.ix2 r c)) := by
  rw [val_main_v84_apply, val_main_v83_apply]
  have hi : idx_main_v83 (idx_main_v84 (ValueIdx.ix2 r k)) = ValueIdx.ix1 r :=
    funext fun a => Fin.ext (by match a with | ⟨0, _⟩ => rfl)
  rw [hi, rowMax_at]

/-- The exponential of the shifted logit at `(r, k)`. -/
theorem exp_at (r : Fin 100000) (k : Fin 2) :
    val_main_v86 (F := Ideal) x0 x1 x2 x3 x4 x5 x6 x7 x8 x9 x10 x11 (ValueIdx.ix2 r k)
      = Ideal.exp (val_main_v79 (F := Ideal) x0 x1 x2 x3 x4 x5 x6 x7 x8 x9 x10 x11 (ValueIdx.ix2 r k) - Sage.rowMax (fun c => val_main_v79 (F := Ideal) x0 x1 x2 x3 x4 x5 x6 x7 x8 x9 x10 x11 (ValueIdx.ix2 r c))) := by
  rw [val_main_v86_apply, val_main_v85_apply, shift_at, Ideal.hostUnary_exp_def, Ideal.subf_def]

/-- The softmax's denominator at row `r`: the sum of the exponentials over the two classes, from zero. -/
theorem sumexp_at (r : Fin 100000) :
    val_main_v87 (F := Ideal) x0 x1 x2 x3 x4 x5 x6 x7 x8 x9 x10 x11 (ValueIdx.ix1 r)
      = ∑ c : Fin 2, Ideal.exp (val_main_v79 (F := Ideal) x0 x1 x2 x3 x4 x5 x6 x7 x8 x9 x10 x11 (ValueIdx.ix2 r c) - Sage.rowMax (fun c => val_main_v79 (F := Ideal) x0 x1 x2 x3 x4 x5 x6 x7 x8 x9 x10 x11 (ValueIdx.ix2 r c))) := by
  rw [val_main_v87_apply, val_main_cst_15_apply, Ideal.ofBits_def, Ideal.ofBits_zero_f32, zero_add]
  refine Finset.sum_congr rfl fun c _ => ?_
  have hi : idx_main_v87 (ValueIdx.ix1 r) c = ValueIdx.ix2 r c :=
    funext fun a => Fin.ext (by match a with | ⟨0, _⟩ => rfl | ⟨1, _⟩ => rfl)
  rw [hi, exp_at]

/-- The class probabilities at `(r, k)` are the softmax of row `r` of the logits. -/
theorem softmax_at (r : Fin 100000) (k : Fin 2) :
    val_main_v90 (F := Ideal) x0 x1 x2 x3 x4 x5 x6 x7 x8 x9 x10 x11 (ValueIdx.ix2 r k) = Sage.softmax (fun c => val_main_v79 (F := Ideal) x0 x1 x2 x3 x4 x5 x6 x7 x8 x9 x10 x11 (ValueIdx.ix2 r c)) k := by
  rw [val_main_v90_apply, exp_at, val_main_v89_apply, val_main_v88_apply]
  have hi : idx_main_v88 (idx_main_v89 (ValueIdx.ix2 r k)) = ValueIdx.ix1 r :=
    funext fun a => Fin.ext (by match a with | ⟨0, _⟩ => rfl)
  rw [hi, sumexp_at, Ideal.hostDivf_def]
  rfl

end Softmax

/-- The reference's class probabilities (its value `%90`): the softmax of the logits of the second layer, at every node. -/
theorem probs_eq (x0 : (⟨S100000x128, .f32⟩ : BufTy).Contents (Elt Ideal)) (x1 : (⟨S2x1600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S2x128, .f32⟩ : BufTy).Contents (Elt Ideal)) (x11 : (⟨S2, .f32⟩ : BufTy).Contents (Elt Ideal)) :
    val_main_v90 (F := Ideal) x0 x1 x2 x3 x4 x5 x6 x7 x8 x9 x10 x11
      = Sage.probsArr (val_main_v61 (F := Ideal) x0 x1 x2 x3 x4 x5 x6) (val_main_v42 (F := Ideal) x0 x1 x2 x3 x4 x5 x6)
          x7 (Sage.vecOf x8) x9 x10 (Sage.vecOf x11) := by
  funext i
  obtain ⟨r, c, rfl⟩ : ∃ (r : Fin 100000) (c : Fin 2), i = ValueIdx.ix2 r c := ⟨i 0, i 1, ValueIdx.eq_ix2 i⟩
  rw [Sage.probsArr_apply, softmax_at,
    show (fun k : Fin 2 => val_main_v79 (F := Ideal) x0 x1 x2 x3 x4 x5 x6 x7 x8 x9 x10 x11 (ValueIdx.ix2 r k)) = Sage.logit (Sage.sage (Sage.rowOf (val_main_v61 (F := Ideal) x0 x1 x2 x3 x4 x5 x6) r) (Sage.rowOf (val_main_v42 (F := Ideal) x0 x1 x2 x3 x4 x5 x6) r) (Sage.matOf x7) (Sage.vecOf x8) (Sage.matOf x9)) (Sage.matOf x10) (Sage.vecOf x11)
      from funext fun k => v79_at x0 x1 x2 x3 x4 x5 x6 x7 x8 x9 x10 x11 r k]
  generalize val_main_v61 (F := Ideal) x0 x1 x2 x3 x4 x5 x6 = A
  generalize val_main_v42 (F := Ideal) x0 x1 x2 x3 x4 x5 x6 = X
  rfl

end Cert.ReferenceIdeal.Layers

end
-- ==== Proof.Bridge.lean ====
/-
  The kernel program's two results are the reference's two results, as functions of the launch arguments.

  Region 0 computes the first stage at every node from the aggregated input features; the second stretch aggregates that
  output; region 1 computes the second layer and the class probabilities from both. The reference computes the same
  stages on whole arrays. Stage by stage the arrays agree: the aggregations are one function of a feature array and the
  edge list (never opened), and every dense stage is the same row function at every node.
-/
import proofs.«113117_j14345190769012_1_alg».proof.Proof.KMean
import proofs.«113117_j14345190769012_1_alg».proof.Proof.K0Val
import proofs.«113117_j14345190769012_1_alg».proof.Proof.K1Val
import proofs.«113117_j14345190769012_1_alg».proof.Proof.RefLayer1
import proofs.«113117_j14345190769012_1_alg».proof.Proof.RefLayer2

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- Row `0` of a bias re-laid as a one-row matrix is the bias. -/
theorem rowOf_relaid {a : ℕ} (x : (⟨1, ![a]⟩ : Shape).Idx → EReal) (h : (⟨1, ![a]⟩ : Shape).ShapeCasts ⟨2, ![1, a]⟩) :
    Sage.rowOf (shapeCast ⟨2, ![1, a]⟩ x h) (0 : Fin 1) = Sage.vecOf x :=
  funext fun j => shapeCast_a_1a_apply x h j

/-- The reference's second aggregation is the same function as its first, of its first stage's output. -/
theorem ref_mean2 (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128x256, .f32⟩ : BufTy).Contents (Elt Ideal))
    (x6 : (⟨Cert.ReferenceIdeal.S128, .f32⟩ : BufTy).Contents (Elt Ideal)) :
    Cert.ReferenceIdeal.Read.val_main_v61 (F := Ideal) x0 x1 x2 x3 x4 x5 x6
      = Cert.ReferenceIdeal.Read.val_main_v22 (F := Ideal) (Cert.ReferenceIdeal.Read.val_main_v42 (F := Ideal) x0 x1 x2 x3 x4 x5 x6) x1 :=
  rfl

/-- Region 0's output array is the reference's first stage. -/
theorem hidden_value (c : Dev nD) :
    (dat0 (F := Ideal) (V1 m ρ) c).arrAt 7 cfg0.N
      = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Region0.arr (V1 m ρ) c, Cert.ReferenceIdeal.Layers.hidden_eq]
  show Sage.hiddenArr (W1 m ρ c (Proc.devRef .tc main_v22)) (W1 m ρ c (Proc.devRef .tc main_arg0)) (W1 m ρ c (Proc.devRef .tc main_arg2))
      (Sage.rowOf (W1 m ρ c (Proc.devRef .tc main_v23)) 0) (W1 m ρ c (Proc.devRef .tc main_arg4)) (W1 m ρ c (Proc.devRef .tc main_arg5))
      (Sage.rowOf (W1 m ρ c (Proc.devRef .tc main_v24)) 0) = _
  rw [W1_mean m ρ c, W1_arg0 m ρ c, W1_arg2 m ρ c, W1_arg4 m ρ c, W1_arg5 m ρ c, W1_bias1 m ρ c, W1_biasLin m ρ c]
  rw [show Sage.rowOf (shapeCast S1x256 (m ((c : Thread nD τ).loc main_arg3)) shapeCasts_S256_S1x256) (0 : Fin 1) = Sage.vecOf (m ((c : Thread nD τ).loc main_arg3)) from rowOf_relaid _ _,
    show Sage.rowOf (shapeCast S1x128 (m ((c : Thread nD τ).loc main_arg6)) shapeCasts_S128_S1x128) (0 : Fin 1) = Sage.vecOf (m ((c : Thread nD τ).loc main_arg6)) from rowOf_relaid _ _]

/-- Region 1 is fed the reference's second aggregation. -/
theorem mean2_value (c : Dev nD) :
    W3 m ρ c (Proc.devRef .tc main_v37)
      = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W3_mean m ρ c, ref_mean2]
  show aggregate (W2 m ρ c (Proc.devRef .tc main_v25)) _ = aggregate _ _
  rw [show W2 m ρ c (Proc.devRef .tc main_v25) = (dat0 (F := Ideal) (V1 m ρ) c).arrAt 7 cfg0.N from W2_arr m ρ c 7, hidden_value m ρ c]

/-- Region 1 reads region 0's output as the nodes' own features: the reference's first stage. -/
theorem hidden_at_region1 (c : Dev nD) :
    W3 m ρ c (Proc.devRef .tc main_v25)
      = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W3_hidden m ρ c).trans (hidden_value m ρ c)

/-- The program's second result (the normalised second layer) is the reference's. -/
theorem y_value (c : Dev nD) :
    W4 m ρ c (Proc.devRef .tc main_v40_0)
      = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [Region1.arrY (V3 m ρ) c, Cert.ReferenceIdeal.Layers.y_eq]
  show Sage.sageArr (W3 m ρ c (Proc.devRef .tc main_v37)) (W3 m ρ c (Proc.devRef .tc main_v25)) (W3 m ρ c (Proc.devRef .tc main_arg7))
      (Sage.rowOf (W3 m ρ c (Proc.devRef .tc main_v38)) 0) (W3 m ρ c (Proc.devRef .tc main_arg9)) = _
  rw [mean2_value m ρ c, hidden_at_region1 m ρ c, W3_arg7 m ρ c, W3_arg9 m ρ c, W3_bias2 m ρ c]
  rw [show Sage.rowOf (shapeCast S1x128 (m ((c : Thread nD τ).loc main_arg8)) shapeCasts_S128_S1x128) (0 : Fin 1) = Sage.vecOf (m ((c : Thread nD τ).loc main_arg8)) from rowOf_relaid _ _]

/-- The program's first result (the class probabilities) is the reference's. -/
theorem probs_value (c : Dev nD) :
    W4 m ρ c (Proc.devRef .tc main_v40_1)
      = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 8).trans ?_
  rw [Region1.arrP (V3 m ρ) c, Cert.ReferenceIdeal.Layers.probs_eq]
  show Sage.probsArr (W3 m ρ c (Proc.devRef .tc main_v37)) (W3 m ρ c (Proc.devRef .tc main_v25)) (W3 m ρ c (Proc.devRef .tc main_arg7))
      (Sage.rowOf (W3 m ρ c (Proc.devRef .tc main_v38)) 0) (W3 m ρ c (Proc.devRef .tc main_arg9)) (W3 m ρ c (Proc.devRef .tc main_arg10))
      (Sage.rowOf (W3 m ρ c (Proc.devRef .tc main_v39)) 0) = _
  rw [mean2_value m ρ c, hidden_at_region1 m ρ c, W3_arg7 m ρ c, W3_arg9 m ρ c, W3_arg10 m ρ c, W3_bias2 m ρ c, W3_biasC m ρ c]
  rw [show Sage.rowOf (shapeCast S1x128 (m ((c : Thread nD τ).loc main_arg8)) shapeCasts_S128_S1x128) (0 : Fin 1) = Sage.vecOf (m ((c : Thread nD τ).loc main_arg8)) from rowOf_relaid _ _,
    show Sage.rowOf (shapeCast S1x2 (m ((c : Thread nD τ).loc main_arg11)) shapeCasts_S2_S1x2) (0 : Fin 1) = Sage.vecOf (m ((c : Thread nD τ).loc main_arg11)) from rowOf_relaid _ _]

end Cert.KernelIdeal.HostValue

end
-- ==== Proof.lean ====
/-
  The certificate of the two-layer GraphSAGE classifier: two Pallas kernels among host operations against a plain jnp
  reference, equal over the extended reals.

  Both programs aggregate neighbour features by the same host chain (a gather along the edges' sources, a scatter-add at
  their targets, a division by the clamped in-degrees), which is carried as one function of a feature array and the edge
  list and never opened. Between the aggregations every stage is dense and acts on each node's row alone: the first
  kernel computes, for a tile of 2000 nodes, `max (normalize (a·W1lᵀ + x·W1rᵀ + b1l)·Wlinᵀ + blin) 0`; the second
  `y = normalize (a'·W2lᵀ + h·W2rᵀ + b2l)` and the softmax of `y·Wlin2ᵀ + blin2`; the reference computes the same on all
  100000 nodes at once, adding each layer's bias before the root term — the one place where the two texts differ, and
  equal because addition of extended reals is commutative and associative. The 50 tiles of each kernel tile the node axis,
  so each kernel's output array is the row function at every node. No finiteness of the inputs is used.
-/
import proofs.«113117_j14345190769012_1_alg».proof.Defs
import proofs.«113117_j14345190769012_1_alg».proof.Proof.Gen.Kernel
import proofs.«113117_j14345190769012_1_alg».proof.Proof.Gen.Kernel.Skeleton
import proofs.«113117_j14345190769012_1_alg».proof.Proof.Gen.Kernel.Launch
import proofs.«113117_j14345190769012_1_alg».proof.Proof.Gen.Kernel.Points
import proofs.«113117_j14345190769012_1_alg».proof.Proof.Gen.Kernel.Frame
import proofs.«113117_j14345190769012_1_alg».proof.Proof.Gen.KernelIdeal
import proofs.«113117_j14345190769012_1_alg».proof.Proof.Gen.KernelIdeal.Skeleton
import proofs.«113117_j14345190769012_1_alg».proof.Proof.Gen.KernelIdeal.Launch
import proofs.«113117_j14345190769012_1_alg».proof.Proof.Gen.KernelIdeal.Points
import proofs.«113117_j14345190769012_1_alg».proof.Proof.Gen.KernelIdeal.Frame
import proofs.«113117_j14345190769012_1_alg».proof.Proof.Gen.ReferenceIdeal
import proofs.«113117_j14345190769012_1_alg».proof.Proof.Gen.ReferenceIdeal.Run
import proofs.«113117_j14345190769012_1_alg».proof.Proof.Gen.ReferenceIdeal.Read
import proofs.«113117_j14345190769012_1_alg».proof.Proof.Gen.Pre_finite_inputs
import proofs.«113117_j14345190769012_1_alg».proof.Proof.KRun
import proofs.«113117_j14345190769012_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is no ledger entry to preserve. -/
theorem preserves : Cert.preserves_Kernel_KernelIdeal := trivial

/-- From memories agreeing on the arguments both programs end with the class probabilities and the normalised second
    layer at ONE pair of arrays: the reference's stage functions of the kernel program's launch arguments. The kernel
    program reaches them region by region; the reference's own run states them of its arguments, which agree. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.ValueRun.run_results (F := Ideal) m ρ)
    obtain ⟨hp, hy, hargs⟩ := h c
    exact ⟨hp.trans (Cert.KernelIdeal.HostValue.probs_value m ρ c), hy.trans (Cert.KernelIdeal.HostValue.y_value m ρ c), hargs⟩
  · refine (θ_run Cert.ReferenceIdeal.defs _ _).mono (fun r h c => ?_) (Cert.ReferenceIdeal.Value.run (F := Ideal) m' ρ')
    obtain ⟨hp, hy, hargs⟩ := h c
    obtain ⟨e0, e1, e2, e3, e4, e5, e6, e7, e8, e9, e10, e11⟩ := hagree c
    refine ⟨hp.trans ?_, hy.trans ?_, hargs⟩
    · rw [Cert.ReferenceIdeal.Read.val_main_v90_eq, e0, e1, e2, e3, e4, e5, e6, e7, e8, e9, e10, e11]
    · rw [Cert.ReferenceIdeal.Read.val_main_v74_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
